-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S1x512 : Shape := ⟨2, ![1, 512]⟩
abbrev S128x512 : Shape := ⟨2, ![128, 512]⟩

abbrev nBuf : Space → Nat
  | .hbm => 7
  | .vmem => 15
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x512, .f32⟩
  | .hbm, ⟨4, _⟩ => ⟨S1x1, .f32⟩
  | .hbm, ⟨5, _⟩ => ⟨S1x512, .f32⟩
  | .hbm, ⟨6, _⟩ => ⟨S1024x512, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1024x512, .f32⟩
  | .local _ .vmem, ⟨8, _⟩ => ⟨S1x1, .f32⟩
  | .local _ .vmem, ⟨9, _⟩ => ⟨S128x512, .f32⟩
  | .local _ .vmem, ⟨10, _⟩ => ⟨S128x512, .f32⟩
  | .local _ .vmem, ⟨11, _⟩ => ⟨S1x1, .f32⟩
  | .local _ .vmem, ⟨12, _⟩ => ⟨S1x512, .f32⟩
  | .local _ .vmem, ⟨13, _⟩ => ⟨S128x512, .f32⟩
  | .local _ .vmem, ⟨14, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S512_S1x512 : S512.ShapeCasts S1x512
  shapeCasts_S1x1_S1x1 : S1x1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  broadcasts_S1x1_S128x512 : S1x1.Broadcasts S128x512
  broadcasts_S1x512_S128x512 : S1x512.Broadcasts S128x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x512.size a
  hwx0_0 : ∀ i : grid0.Coords, EltTy.bits .f32 = 32 ∨ (Rect.block (s := S1024x512) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x512.size a
  hwx0_1 : ∀ i : grid0.Coords, EltTy.bits .f32 = 32 ∨ (Rect.block (s := S512x512) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x512.size a
  hwx0_2 : ∀ i : grid0.Coords, EltTy.bits .f32 = 32 ∨ (Rect.block (s := S1024x512) S128x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x512.size a
  hwx1_0 : ∀ i : grid1.Coords, EltTy.bits .f32 = 32 ∨ (Rect.block (s := S1024x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x512.size a ≤ S1024x512.size a
  hwx2_0 : ∀ i : grid2.Coords, EltTy.bits .f32 = 32 ∨ (Rect.block (s := S1024x512) S128x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x512.size a ≤ S1024x512.size a
  hwx2_3 : ∀ i : grid2.Coords, EltTy.bits .f32 = 32 ∨ (Rect.block (s := S1024x512) S128x512.size (cc2_transform_3 i) (hinb2_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S128x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S128x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x1x512, .f32⟩
  | .hbm, ⟨4, _⟩ => ⟨S1x512x512, .f32⟩
  | .hbm, ⟨5, _⟩ => ⟨S1024x512x512, .f32⟩
  | .hbm, ⟨6, _⟩ => ⟨S1024x512x512, .f32⟩
  | .hbm, ⟨7, _⟩ => ⟨S1024x512x512, .f32⟩
  | .hbm, ⟨8, _⟩ => ⟨S1024x512x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1x512, .f32⟩
  | .hbm, ⟨19, _⟩ => ⟨S1024x512, .f32⟩
  | .hbm, ⟨20, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel
  reducesTo_S1024x512_S_d0_1 : S1024x512.ReducesTo [0, 1] S_
  bcast_S_S1024x512 : S_.BroadcastsInDim S1024x512 (![] : Fin 0 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.K.Region0.lean ====
/-
  Region 0 of the kernel's @main: the pairwise distances. The grid is 8 x 4 x 4: a block of 128 rows of the
  first argument, a block of 128 rows of the second, and a block of 128 columns of both. A scratch block carries the
  running sums from point to point: it is reset to zero where the column block is the first, gains at every point the
  sums over the point's 128 columns of the absolute differences, and is copied into the output block where the column
  block is the last, which is where the output block is written back.
-/
import proofs.«155119_j31413390803001_1_alg».proof.Proof.Gen.Kernel.Launch
import proofs.«155119_j31413390803001_1_alg».proof.Proof.Gen.Kernel.Skeleton
import proofs.«155119_j31413390803001_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch block as a memref. -/
abbrev scM0 : Memref sig .tc .vmem S128x128 .f32 := Memref.whole cc0_scratch0

/-- What the scratch block holds after the body at position `n`: the point's payload over zero where the column block
    is the first, over what the point before left elsewhere. -/
def acc0 (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n =>
    show (if (n + 1) % 4 = 0 then _ else _) = _
    rw [if_pos h]

theorem acc0_later (c : Dev nD) (t : Fin cfg0.N) (h : t.val % 4 ≠ 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod 4) h
  | succ n =>
    show (if (n + 1) % 4 = 0 then _ else _) = _
    rw [if_neg h]; rfl

/-! ## The body's two conditions in closed form, and where the output window is idle -/

/-- The first conditional's condition (the column block is the first), from the grid coordinates. -/
abbrev cond0_0 (i : grid0.Coords) : Prop :=
  (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the column block is the last). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output is idle where the column block is not the last, and is not written back there; -/
theorem idleAt0_2 : ∀ t : Fin cfg0.N, t.val % 4 ≠ 3 → cfg0.idle 2 (grid0.coords t) = true := by decide +kernel
theorem noFlush0_2 : ∀ t : Fin cfg0.N, t.val % 4 ≠ 3 → (cfg0.win 2).flush t = false := by decide +kernel
/-- it is live where the column block is the last. -/
theorem liveAt0_2 : ∀ t : Fin cfg0.N, t.val % 4 = 3 → cfg0.idle 2 (grid0.coords t) = false := by decide +kernel

theorem hz : (![0, 0] : Fin 2 → Nat) = fun _ => 0 := funext fun a => by fin_cases a <;> rfl

/-! ## The body on whole memrefs at stated contents, case by case -/

/-- A list of stores whose last is of the whole block covers it. -/
theorem cover_cons (w : Vec F S128x128 .f32) (L : List (View.Piece (Elt F) S128x128 .f32)) (y : S128x128.Idx) :
    ∃ p ∈ ((⟨Rect.unit (s := S128x128) ![0, 0] S128x128.size inb_S128x128_S128x128_0_0, w⟩ : View.Piece (Elt F) S128x128 .f32) :: L), y ∈ p.1.set :=
  ⟨⟨Rect.unit (s := S128x128) ![0, 0] S128x128.size inb_S128x128_S128x128_0_0, w⟩, List.mem_cons_self, View.mem_set_unit_zero hz inb_S128x128_S128x128_0_0 y⟩

set_option maxHeartbeats 1000000 in
/-- The column block neither first nor last: the scratch block gains the point's sums; the output block is handed back as found. -/
theorem run0_B (c : Dev nD) (i : grid0.Coords) (arg3 : Memref sig .tc .vmem S128x128 .f32) (h3 : arg3.IsWhole) (arg4 : Memref sig .tc .vmem S128x128 .f32) (h4 : arg4.IsWhole) (arg5 : Memref sig .tc .vmem S128x128 .f32) (h5 : arg5.IsWhole) (arg6 : Memref sig .tc .vmem S128x128 .f32) (h6 : arg6.IsWhole)
    (hc0 : ¬cond0_0 i) (hc1 : ¬cond0_1 i) (x y xi s : Vec F S128x128 .f32) (E : Set ℕ) (K : PUnit → sProp 𝕄) :
    iprop(owns (c : Thread nD τ) arg3 fullShare x ∗ owns (c : Thread nD τ) arg4 fullShare y ∗ owns (c : Thread nD τ) arg5 fullShare xi ∗ owns (c : Thread nD τ) arg6 fullShare s
        ∗ (iprop(owns (c : Thread nD τ) arg3 fullShare x ∗ owns (c : Thread nD τ) arg4 fullShare y ∗ owns (c : Thread nD τ) arg5 fullShare xi ∗ owns (c : Thread nD τ) arg6 fullShare (k0_pay2 x y s)) -∗ K ⟨⟩))
      ⊢ wp frame (wpE (defs₀ (F := F)) Variants.none c none) E (cc0__cdist_kernel i arg3 h3 arg4 h4 arg5 h5 arg6 h6) K := by
  simp only [cc0__cdist_kernel_eq_skeleton]; unfold cc0__cdist_kernel_skel
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc0 | exact hc1)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [View.read_writes_eq_canon _ _ _ (cover_cons _ _), View.canon_unit_zero hz]
  simp only [View.readAt_eq_ld, h3.read_unread, h4.read_unread, h6.read_unread, View.ld_unit_zero (S := S128x128) hz]

set_option maxHeartbeats 1000000 in
/-- The column block the first: the scratch block is reset to zero and gains the point's sums, whatever it held; the output block is handed back as found. -/
theorem run0_A (c : Dev nD) (i : grid0.Coords) (arg3 : Memref sig .tc .vmem S128x128 .f32) (h3 : arg3.IsWhole) (arg4 : Memref sig .tc .vmem S128x128 .f32) (h4 : arg4.IsWhole) (arg5 : Memref sig .tc .vmem S128x128 .f32) (h5 : arg5.IsWhole) (arg6 : Memref sig .tc .vmem S128x128 .f32) (h6 : arg6.IsWhole)
    (hc0 : cond0_0 i) (hc1 : ¬cond0_1 i) (x y xi s : Vec F S128x128 .f32) (E : Set ℕ) (K : PUnit → sProp 𝕄) :
    iprop(owns (c : Thread nD τ) arg3 fullShare x ∗ owns (c : Thread nD τ) arg4 fullShare y ∗ owns (c : Thread nD τ) arg5 fullShare xi ∗ owns (c : Thread nD τ) arg6 fullShare s
        ∗ (iprop(owns (c : Thread nD τ) arg3 fullShare x ∗ owns (c : Thread nD τ) arg4 fullShare y ∗ owns (c : Thread nD τ) arg5 fullShare xi ∗ owns (c : Thread nD τ) arg6 fullShare (k0_pay2 x y (k0_pay1 (F := F)))) -∗ K ⟨⟩))
      ⊢ wp frame (wpE (defs₀ (F := F)) Variants.none c none) E (cc0__cdist_kernel i arg3 h3 arg4 h4 arg5 h5 arg6 h6) K := by
  simp only [cc0__cdist_kernel_eq_skeleton]; unfold cc0__cdist_kernel_skel
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc0 | exact hc1)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  sl_unfold_run_names
  rw [View.read_writes_eq_canon _ _ _ (cover_cons _ _), View.canon_cons_unit_zero hz, View.readCov_unit_zero (S := S128x128) _ hz]
  simp only [View.readAt_eq_ld, h3.read_unread, h4.read_unread, View.ld_unit_zero (S := S128x128) hz]

set_option maxHeartbeats 1000000 in
/-- The column block the last: the scratch block gains the point's sums and is copied into the output block, whatever that held. -/
theorem run0_C (c : Dev nD) (i : grid0.Coords) (arg3 : Memref sig .tc .vmem S128x128 .f32) (h3 : arg3.IsWhole) (arg4 : Memref sig .tc .vmem S128x128 .f32) (h4 : arg4.IsWhole) (arg5 : Memref sig .tc .vmem S128x128 .f32) (h5 : arg5.IsWhole) (arg6 : Memref sig .tc .vmem S128x128 .f32) (h6 : arg6.IsWhole)
    (hc0 : ¬cond0_0 i) (hc1 : cond0_1 i) (x y xi s : Vec F S128x128 .f32) (E : Set ℕ) (K : PUnit → sProp 𝕄) :
    iprop(owns (c : Thread nD τ) arg3 fullShare x ∗ owns (c : Thread nD τ) arg4 fullShare y ∗ owns (c : Thread nD τ) arg5 fullShare xi ∗ owns (c : Thread nD τ) arg6 fullShare s
        ∗ (iprop(owns (c : Thread nD τ) arg3 fullShare x ∗ owns (c : Thread nD τ) arg4 fullShare y ∗ owns (c : Thread nD τ) arg5 fullShare (k0_pay2 x y s) ∗ owns (c : Thread nD τ) arg6 fullShare (k0_pay2 x y s)) -∗ K ⟨⟩))
      ⊢ wp frame (wpE (defs₀ (F := F)) Variants.none c none) E (cc0__cdist_kernel i arg3 h3 arg4 h4 arg5 h5 arg6 h6) K := by
  simp only [cc0__cdist_kernel_eq_skeleton]; unfold cc0__cdist_kernel_skel
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc0 | exact hc1)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    sl_unfold_run_names
    rw [View.read_writes_eq_canon _ _ _ (cover_cons _ _), View.canon_unit_zero hz, View.readCov_unit_zero (S := S128x128) _ hz]
    simp only [View.readAt_eq_ld, h3.read_unread, h4.read_unread, h6.read_unread, View.ld_unit_zero (S := S128x128) hz]
  iexists _; isplitr
  swap; · iexact H6
  ipureintro
  sl_unfold_run_names
  rw [View.read_writes_eq_canon _ _ _ (cover_cons _ _), View.canon_unit_zero hz]
  simp only [View.readAt_eq_ld, h3.read_unread, h4.read_unread, h6.read_unread, View.ld_unit_zero (S := S128x128) hz]

/-- The core's scoped buffers other than the scratch block and this pipeline's staging buffers, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's invariant before position `n`: at the start what the launch hands over; afterwards the scratch block
    at what the point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

/-- The proof data of pipeline 0: each input's buffer stays at its block, the output's holds the scratch block's
    contents (read only where the column block is the last). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## The invariant's forms -/

/-- What the launch hands over: the scratch block at some contents, the other scoped buffers at anything, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

theorem PhiS0_zero (c : Dev nD) (n : ℕ) (h : n ≤ cfg0.N) (hn : n = 0) : PhiS0 V c n h = Pipeline.ΦA spec0 c := by
  subst hn; rfl

/-- After point `n`: the scratch block at that point's contents. -/
theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

/-- Before a point that is not the first: the scratch block at what the point before left. -/
theorem PhiS0_pos (c : Dev nD) (n : ℕ) (h : n ≤ cfg0.N) (hn : n ≠ 0) :
    PhiS0 V c n h = iprop(owns (c : Thread nD τ) scM0 fullShare (acc0 V c (n - 1) (by omega)) ∗ rest0 (F := F) c ∗ (∃ r, prngReg c r)) := by
  cases n with
  | zero => exact absurd rfl hn
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨HS, Hr, Hg⟩
  isplitl [HS Hr]
  · isplitl [HS]
    · iexists _; iexact HS
    iexact Hr
  iexact Hg

/-! ## The inputs' buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation, at a generic point -/

/-- Each window's current staging memref at point `t`, and its wholeness. -/
abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the column block's position says which of the three
    cases the point is in; the invariant hands the body the scratch block at what the point before left (at anything
    at the first point) and takes it back at this point's contents; where the column block is not the last the output
    block goes back as found, where it is the last it holds the scratch block's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · -- the column block is the first
    have hc0 : cond0_0 (grid0.coords t) := (hcond0_0 t).mpr h0
    have hc1 : ¬cond0_1 (grid0.coords t) := fun h => by have := (hcond0_1 t).mp h; omega
    have h3 : t.val % 4 ≠ 3 := by omega
    rw [Dat.leavesExact_idle (dat0 V c) 2 t (idleAt0_2 t h3) (noFlush0_2 t h3)]
    rw [acc0_first V c t h0]
    -- at the first point the scratch block holds anything, later what the point before left: either way it is reset
    by_cases hz : t.val = 0
    on_goal 1 =>
      rw [PhiS0_castSucc V c t, PhiS0_zero V c _ _ hz, PhiA0_eq]
      iintro ⟨⟨⟨⟨%s, HS⟩, Hr⟩, Hg⟩, Ho, ⟨%d0, H0⟩, ⟨%d1, H1⟩, ⟨%d2, H2⟩⟩
    on_goal 2 =>
      rw [PhiS0_castSucc V c t, PhiS0_pos V c _ _ hz]
      iintro ⟨⟨HS, Hr, Hg⟩, Ho, ⟨%d0, H0⟩, ⟨%d1, H1⟩, ⟨%d2, H2⟩⟩
    all_goals
      iapply (run0_A c (grid0.coords t) _ _ _ _ _ _ _ _ hc0 hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
  · have hz : t.val ≠ 0 := fun h => h0 (by rw [h])
    have hc0 : ¬cond0_0 (grid0.coords t) := fun h => h0 ((hcond0_0 t).mp h)
    rw [acc0_later V c t h0]
    rw [PhiS0_castSucc V c t, PhiS0_pos V c _ _ hz]
    by_cases h3 : t.val % 4 = 3
    · -- the column block is the last
      have hc1 : cond0_1 (grid0.coords t) := (hcond0_1 t).mpr h3
      rw [show (dat0 V c).leavesExact 2 t = owns (c : Thread nD τ) (ms0_2 t) fullShare ((dat0 V c).after 2 t) from by
        unfold Dat.leavesExact; rw [liveAt0_2 t h3], after0_2, acc0_later V c t h0]
      iintro ⟨⟨HS, Hr, Hg⟩, Ho, ⟨%d0, H0⟩, ⟨%d1, H1⟩, ⟨%d2, H2⟩⟩
      iapply (run0_C c (grid0.coords t) _ _ _ _ _ _ _ _ hc0 hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · -- the column block is neither
      have hc1 : ¬cond0_1 (grid0.coords t) := fun h => h3 ((hcond0_1 t).mp h)
      rw [Dat.leavesExact_idle (dat0 V c) 2 t (idleAt0_2 t h3) (noFlush0_2 t h3)]
      iintro ⟨⟨HS, Hr, Hg⟩, Ho, ⟨%d0, H0⟩, ⟨%d1, H1⟩, ⟨%d2, H2⟩⟩
      iapply (run0_B c (grid0.coords t) _ _ _ _ _ _ _ _ hc0 hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/-
  Region 1 of the kernel's @main: the global maximum. One grid point; the whole 1024 x 512 array of
  distances is the one input block, and the body stores into the 1 x 1 output block the maximum over the rows of
  the maxima over each row's lanes.
-/
import proofs.«155119_j31413390803001_1_alg».proof.Proof.Gen.Kernel.Launch
import proofs.«155119_j31413390803001_1_alg».proof.Proof.Gen.Kernel.Skeleton
import proofs.«155119_j31413390803001_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1: the input's buffer stays at its block, the output's holds the body's payload of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = k1_pay1 (iblk1 V c 0 t) := by dsimp only [dat1]

/-- Input window 0's current buffer holds its block at every point, fetched there or not, for any proof data whose
    array is `V`'s and whose body leaves the block in place: unfetched, the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The offset of the body's rectangles is zero on both axes. -/
theorem hz1 : (![0, 0] : Fin 2 → Nat) = fun _ => 0 := funext fun a => by fin_cases a <;> rfl

/-- The whole input block, which the body loads, and the whole output block, which it loads and then stores. -/
abbrev r1_in : Rect S1024x512 := Rect.unit (s := S1024x512) ![0, 0] S1024x512.size inb_S1024x512_S1024x512_0_0
abbrev r1_out : Rect S1x1 := Rect.unit (s := S1x1) ![0, 0] S1x1.size inb_S1x1_S1x1_0_0

/-- The output buffer after the body, from the input block: its one store as a piece. -/
def out1_1 (x0 : Vec F S1024x512 .f32) : Vec F S1x1 .f32 :=
  View.canon [⟨r1_out, k1_pay1 (View.ld x0 r1_in)⟩]

/-- The one store is through the whole block, so it covers it. -/
theorem cover1_1 (p0 : Vec F S1x1 .f32) (y : S1x1.Idx) :
    ∃ pc ∈ ([⟨r1_out, p0⟩] : List (View.Piece (Elt F) S1x1 .f32)), y ∈ pc.1.set :=
  View.cover_of_tiled [⟨r1_out, p0⟩] S1x1.size (by rfl) y

/-- A whole-block store of the payload of a whole-block load leaves the payload of the block itself. -/
theorem out1_1_eq (x0 : Vec F S1024x512 .f32) : out1_1 x0 = k1_pay1 x0 := by
  unfold out1_1
  rw [View.canon_unit_zero (S := S1x1) hz1, View.ld_unit_zero (S := S1024x512) hz1]

set_option maxHeartbeats 1000000 in
/-- The body on whole memrefs, the input's at contents `x0` and the output's at anything: it loads the input block,
    loads the output block (a value it does not use) and stores the payload over the whole output block; the input
    is left as it was and the output holds `out1_1 x0`. -/
theorem sound_kernel1 (c : Dev nD) (E : Set ℕ) (i : grid1.Coords) (arg1 : Memref sig .tc .vmem S1024x512 .f32) (harg1 : arg1.IsWhole)
    (arg2 : Memref sig .tc .vmem S1x1 .f32) (harg2 : arg2.IsWhole)
    (x0 : Vec F S1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__max_kernel i arg1 harg1 arg2 harg2) K := by
  simp only [cc1__max_kernel_eq_skeleton]; unfold cc1__max_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The input's current buffer holds its block at every point. -/
theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, ← out1_1_eq]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Region2.lean ====
/-
  Region 2 of the kernel's @main: the closing pass. Eight grid points, one per block of 128 rows; at each
  point the body reads the block of distances, the 1 x 1 maximum and the 1 x 512 row of weights and stores, into the
  128 x 512 output block, the weight times (zero minus the distance, plus the maximum times the literal).
-/
import proofs.«155119_j31413390803001_1_alg».proof.Proof.Gen.Kernel.Launch
import proofs.«155119_j31413390803001_1_alg».proof.Proof.Gen.Kernel.Skeleton
import proofs.«155119_j31413390803001_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of pipeline 2: each input's buffer stays at its block, the output's holds the body's payload of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 1 t) (iblk2 V c 2 t) (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 1 t) (iblk2 V c 2 t) (iblk2 V c 0 t) := by dsimp only [dat2]

/-- Input window 0's current buffer holds its block at every point, fetched there or not, for any proof data whose
    array is `V`'s and whose body leaves the block in place: unfetched, the index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for any proof data whose
    array is `V`'s and whose body leaves the block in place: unfetched, the index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for any proof data whose
    array is `V`'s and whose body leaves the block in place: unfetched, the index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The offset of the body's rectangles is zero on both axes. -/
theorem hz2 : (![0, 0] : Fin 2 → Nat) = fun _ => 0 := funext fun a => by fin_cases a <;> rfl

/-- The whole blocks the body loads (the distances, the maximum, the weights) and the whole output block, which it
    loads and then stores. -/
abbrev r2_blk : Rect S128x512 := Rect.unit (s := S128x512) ![0, 0] S128x512.size inb_S128x512_S128x512_0_0
abbrev r2_max : Rect S1x1 := Rect.unit (s := S1x1) ![0, 0] S1x1.size inb_S1x1_S1x1_0_0
abbrev r2_wt : Rect S1x512 := Rect.unit (s := S1x512) ![0, 0] S1x512.size inb_S1x512_S1x512_0_0

/-- The output buffer after the body, from the input blocks (the distances `x0`, the maximum `x1`, the weights
    `x2`): its one store as a piece. -/
def out2_3 (x0 : Vec F S128x512 .f32) (x1 : Vec F S1x1 .f32) (x2 : Vec F S1x512 .f32) : Vec F S128x512 .f32 :=
  View.canon [⟨r2_blk, k2_pay1 (View.ld x1 r2_max) (View.ld x2 r2_wt) (View.ld x0 r2_blk)⟩]

/-- The one store is through the whole block, so it covers it. -/
theorem cover2_3 (p0 : Vec F S128x512 .f32) (y : S128x512.Idx) :
    ∃ pc ∈ ([⟨r2_blk, p0⟩] : List (View.Piece (Elt F) S128x512 .f32)), y ∈ pc.1.set :=
  View.cover_of_tiled [⟨r2_blk, p0⟩] S128x512.size (by rfl) y

/-- A whole-block store of the payload of whole-block loads leaves the payload of the blocks themselves. -/
theorem out2_3_eq (x0 : Vec F S128x512 .f32) (x1 : Vec F S1x1 .f32) (x2 : Vec F S1x512 .f32) :
    out2_3 x0 x1 x2 = k2_pay1 x1 x2 x0 := by
  unfold out2_3
  rw [View.canon_unit_zero (S := S128x512) hz2, View.ld_unit_zero (S := S1x1) hz2, View.ld_unit_zero (S := S1x512) hz2,
    View.ld_unit_zero (S := S128x512) hz2]

set_option maxHeartbeats 1000000 in
/-- The body on whole memrefs, the inputs' at contents `x0`, `x1`, `x2` and the output's at anything: it loads the
    maximum, the weights and the distances, loads the output block (a value it does not use) and stores the payload
    over the whole output block; the inputs are left as they were and the output holds `out2_3 x0 x1 x2`. -/
theorem sound_kernel2 (c : Dev nD) (E : Set ℕ) (i : grid2.Coords) (arg1 : Memref sig .tc .vmem S128x512 .f32) (harg1 : arg1.IsWhole)
    (arg2 : Memref sig .tc .vmem S1x1 .f32) (harg2 : arg2.IsWhole) (arg3 : Memref sig .tc .vmem S1x512 .f32) (harg3 : arg3.IsWhole)
    (arg4 : Memref sig .tc .vmem S128x512 .f32) (harg4 : arg4.IsWhole)
    (x0 : Vec F S128x512 .f32) (x1 : Vec F S1x1 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, ← out2_3_eq]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.LibClassARegion.lean ====
/-
  A kernel region whose invariant starts from and returns to the scoped rest and the generator register (`hΦin`,
  `hΦout`: between the first and the last point it may hold more, a scratch buffer's contents carried from point to
  point), with EXACT proof data, as a segment of a program of several regions — stated once, for any pipeline `p` of
  any family of proof data.

  Between two items of @main a core holds every unscoped buffer whole at a valuation, beside the generator register at
  some state and the core owing nothing. A region of this class is entered from the valuation `W c` its proof data read
  their arrays from (`hA`) and left at any valuation `W' c` that has each of the pipeline's arrays at what the
  write-backs leave (`hF`) and agrees with `W c` elsewhere (`hrest`): the arrays are split out of the unscoped buffers
  at entry and put back at exit, the register goes into the invariant and comes back, nothing is owed, the kernel has
  no semaphore of its own and no prefetched table.
-/
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace ClassA

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

/-- What rides beside the buffers through every item: the generator register at some state, the core owing nothing. -/
def rides (c : Dev nD) : sProp 𝕄₁ :=
  iprop((∃ r, prngReg c r) ∗ ∃ W, owes (c.tc : Thread nD τ) (0 : CellTallies nD τ sig Unit) W)

/-- The thread state between two items: every unscoped buffer at `W`, and what rides along. -/
def between (c : Dev nD) (W : Valuation τ sig Val) : sProp 𝕄₁ :=
  iprop(StableHlo.held (c.tc : Thread nD τ) (ucRefs τ sig) W ∗ rides (U' := U') c)

set_option backward.isDefEq.respectTransparency.types false in
/-- THE REGION RECORD of a class-A pipeline with exact proof data. -/
def region (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (ΦA (pin pcs a p).spec c : sProp 𝕄₁) ⊢ (pdats p c).Φ 0)
    (hΦout : ∀ c, (pdats p c).Φ (Fin.last (pin pcs a p).N) ⊢ (ΦA (pin pcs a p).spec c : sProp 𝕄₁))
    (hpre : ∀ c, (BI.emp : sProp 𝕄₁) ⊢ prefHeld (pcs p).pre c (fun _ => fullShare) (a p).1)
    (W W' : Dev nD → Valuation τ sig Val)
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop(∃ r, prngReg c r)
  Z c := unscopedRest (Ix := Unit) (Name := ℕ) (U := U') (Lvl := ℕ) (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    rw [ownSems0_none]
    unfold between rides
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hrest
  hin c := by
    have h : (iprop((∃ r, prngReg c r) ∗ prefHeld (pcs p).pre c (fun _ => fullShare) (a p).1 ∗ scopedRest (pin pcs a p).spec c) : sProp 𝕄₁)
        ⊢ ΦA (pin pcs a p).spec c := by
      unfold ΦA
      iintro ⟨Hp, -, Hr⟩
      isplitl [Hr]; · iexact Hr
      iexact Hp
    exact h.trans (hΦin c)
  hout c := by
    have h : (ΦA (pin pcs a p).spec c : sProp 𝕄₁)
        ⊢ iprop((∃ r, prngReg c r) ∗ ownSems0 (fun k : PEmpty => k.elim) c ∗ scopedRest (pin pcs a p).spec c) := by
      rw [ownSems0_none]; unfold ΦA
      iintro ⟨Hr, Hp⟩
      isplitl [Hp]; · iexact Hp
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N) (hF c) (hrest c)
    rw [unscopedBufs_held] at hjoin
    unfold between rides
    iintro ⟨Ha, HO, HY, Hrest⟩
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO

end ClassA

end Pipeline

end Idealize.ShloMosaic

end
-- ==== Proof.K.Run.lean ====
/-
  The run of the kernel's @main as four items — the three kernel regions and, before the last, the reshape
  of the weights into a row — with every unscoped buffer's contents named at each boundary: at launch the memory; after
  a region its arrays at what its write-backs leave and every other buffer as before; after the reshape what it
  computes. Every weakly fair execution terminates with each unscoped buffer at the last boundary's contents; read at
  the arguments these are the launch contents, and at the result what region 2's write-backs leave.
-/
import proofs.«155119_j31413390803001_1_alg».proof.Proof.K.Region0
import proofs.«155119_j31413390803001_1_alg».proof.Proof.K.Region1
import proofs.«155119_j31413390803001_1_alg».proof.Proof.K.Region2
import proofs.«155119_j31413390803001_1_alg».proof.Proof.LibClassARegion
import proofs.«155119_j31413390803001_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev W0 (c : Dev nD) : Valuation τ sig (Elt F) := fun b => m (c, b)
/-- The same read at the TensorCore's references. -/
abbrev U0 : (c : Dev nD) → (b : Ref sig .tc) → Buf (Elt F) ((c : Thread nD τ).loc b) := fun c b => W0 m c b
/-- After region 0. -/
def W1 (c : Dev nD) : Valuation τ sig (Elt F) :=
  Pipeline.withArrays spec0 c (W0 m c) fun w => (dat0 (U0 m) c).arrAt w cfg0.N
abbrev U1 : (c : Dev nD) → (b : Ref sig .tc) → Buf (Elt F) ((c : Thread nD τ).loc b) := fun c b => W1 m c b
/-- After region 1. -/
def W2 (c : Dev nD) : Valuation τ sig (Elt F) :=
  Pipeline.withArrays spec1 c (W1 m c) fun w => (dat1 (U1 m) c).arrAt w cfg1.N
abbrev U2 : (c : Dev nD) → (b : Ref sig .tc) → Buf (Elt F) ((c : Thread nD τ).loc b) := fun c b => W2 m c b
/-- After the reshape. -/
abbrev W3 (c : Dev nD) : Valuation τ sig (Elt F) := StableHlo.after hostOps2 (W2 m c)
abbrev U3 : (c : Dev nD) → (b : Ref sig .tc) → Buf (Elt F) ((c : Thread nD τ).loc b) := fun c b => W3 m c b
/-- After region 2. -/
def W4 (c : Dev nD) : Valuation τ sig (Elt F) :=
  Pipeline.withArrays spec2 c (W3 m c) fun w => (dat2 (U3 m) c).arrAt w cfg2.N

theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem W3_of (c : Dev nD) (r : Ref sig .tc) (h : r ∉ hostOps2_W) :
    W3 m c (Proc.devRef .tc r) = W2 m c (Proc.devRef .tc r) :=
  StableHlo.after_of_writes_sub hostOps2 _ hostOps2_writes h
theorem W4_arr (c : Dev nD) (w : Fin cfg2.W) :
    W4 m c (Proc.devRef .tc (Pipeline.arrRef spec2 w)) = (dat2 (U3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

/-! ## The proof data family and the segments -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
  | ⟨2, _⟩ => fun c => dat2 (U3 m) c

/-- No core owes another anything: no level is assigned. -/
abbrev Lz : GSem nD τ sig → Finset Unit := fun _ => ∅
abbrev lvz : GSem nD τ sig → Unit → ℕ := fun _ _ => 0

/-- No pipeline has a prefetched table: what is held of them is nothing. -/
theorem noTables (p : Fin 3) (c : Dev nD) :
    (BI.emp : sProp 𝕄) ⊢ Pipeline.prefHeld (pcfgs (F := F) p).pre c (fun _ => fullShare) (adm (F := F) p).1 := by
  match p with
  | ⟨0, _⟩ => unfold Pipeline.prefHeld; rw [show (Finset.univ : Finset (Fin 0)) = ∅ from rfl, BI.bigSep_empty]
  | ⟨1, _⟩ => unfold Pipeline.prefHeld; rw [show (Finset.univ : Finset (Fin 0)) = ∅ from rfl, BI.bigSep_empty]
  | ⟨2, _⟩ => unfold Pipeline.prefHeld; rw [show (Finset.univ : Finset (Fin 0)) = ∅ from rfl, BI.bigSep_empty]

set_option backward.isDefEq.respectTransparency.types false in
/-- Region 0 as a segment: entered from the launch contents, left at `W1`. -/
def reg0 : Pipeline.RegionSeg (pcfgs (F := F)) adm (pdats m) () defs₀ Variants.none Lz lvz 0 :=
  Pipeline.ClassA.region (pcfgs (F := F)) adm (pdats m) defs₀ Variants.none Lz lvz 0 launch0.toP
    (fun c => body_obligation0 (U0 m) c) (fun _ _ => rfl) (fun _ _ => rfl) (fun _ _ => rfl)
    (fun c => hin0 (U0 m) c) (fun c => hout0 (U0 m) c) (noTables 0)
    (W0 m) (W1 m) (fun _ _ => rfl) (fun c w => (W1_arr m c w).symm)
    (fun c b hb => W1_of_ne m c b fun w e => hb (Finset.mem_image.mpr ⟨w, Finset.mem_univ _, e⟩))

set_option backward.isDefEq.respectTransparency.types false in
/-- Region 1 as a segment: entered from `W1`, left at `W2`. -/
def reg1 : Pipeline.RegionSeg (pcfgs (F := F)) adm (pdats m) () defs₀ Variants.none Lz lvz 1 :=
  Pipeline.ClassA.region (pcfgs (F := F)) adm (pdats m) defs₀ Variants.none Lz lvz 1 launch1.toP
    (fun c => body_obligation1 (U1 m) c) (fun _ _ => rfl) (fun _ _ => rfl) (fun _ _ => rfl)
    (fun _ => .rfl) (fun _ => .rfl) (noTables 1)
    (W1 m) (W2 m) (fun _ _ => rfl) (fun c w => (W2_arr m c w).symm)
    (fun c b hb => W2_of_ne m c b fun w e => hb (Finset.mem_image.mpr ⟨w, Finset.mem_univ _, e⟩))

set_option backward.isDefEq.respectTransparency.types false in
/-- Region 2 as a segment: entered from `W3`, left at `W4`. -/
def reg2 : Pipeline.RegionSeg (pcfgs (F := F)) adm (pdats m) () defs₀ Variants.none Lz lvz 2 :=
  Pipeline.ClassA.region (pcfgs (F := F)) adm (pdats m) defs₀ Variants.none Lz lvz 2 launch2.toP
    (fun c => body_obligation2 (U3 m) c) (fun _ _ => rfl) (fun _ _ => rfl) (fun _ _ => rfl)
    (fun _ => .rfl) (fun _ => .rfl) (noTables 2)
    (W3 m) (W4 m) (fun _ _ => rfl) (fun c w => (W4_arr m c w).symm)
    (fun c b hb => W4_of_ne m c b fun w e => hb (Finset.mem_image.mpr ⟨w, Finset.mem_univ _, e⟩))

/-- The reshape of the weights as a segment: over the unscoped references from `W2`, the register and the core's
    dues riding along; it leaves them at `W3`. -/
abbrev hseg2 : Pipeline.HostSeg (Ix := Unit) (Name := ℕ) (U := UR sig nD τ) (Lvl := ℕ) (pcfgs (F := F)) defs₀ Variants.none Lz lvz :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) (Pipeline.ClassA.rides (U' := UR sig nD τ))

/-- @main's four items in order. -/
abbrev segs : List (Pipeline.Seg (pcfgs (F := F)) adm (pdats m) () defs₀ Variants.none Lz lvz) :=
  [ .region (reg0 m), .region (reg1 m), .host (hseg2 m), .region (reg2 m) ]

/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting,
    and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ Variants.none Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => Pipeline.ClassA.between (U' := UR sig nD τ) c (W0 m c))
    (Tₙ := fun c => StableHlo.held (c : Thread nD τ) (Pipeline.ucRefs τ sig) (W4 m c))
    (hch := ⟨fun _ => .rfl, fun _ => .rfl, fun _ => .rfl, fun _ => .rfl, fun c => by
      show (Pipeline.ClassA.between (U' := UR sig nD τ) c (W4 m c) : sProp 𝕄)
        ⊢ iprop(StableHlo.held (c : Thread nD τ) (Pipeline.ucRefs τ sig) (W4 m c) ∗ ∃ W, owes (c : Thread nD τ) (0 : CellTallies nD τ sig Unit) W)
      unfold Pipeline.ClassA.between Pipeline.ClassA.rides
      iintro ⟨Hh, -, HO⟩
      isplitl [Hh]; · iexact Hh
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      unfold Pipeline.ClassA.between Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The last boundary read back -/

/-- The arguments end as launched: no region writes one (each reads it through an input window or passes it by) and
    the reshape writes another buffer. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := (W1_arr m c 0).trans (((dat0 (U0 m) c).arrAt_in 0 rfl _).trans (A_eq0 (U0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := (W1_arr m c 1).trans (((dat0 (U0 m) c).arrAt_in 1 rfl _).trans (A_eq0 (U0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl

/-- The result array ends at what region 2's write-backs leave. -/
theorem W4_main_v3 (c : Dev nD) : W4 m c (Proc.devRef .tc main_v3) = (dat2 (U3 m) c).arrAt 3 cfg2.N :=
  W4_arr m c 3

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Fr

end
-- ==== Proof.KI.Region0.lean ====
/-
  Region 0 of the kernel's @main: the pairwise distances. The grid is 8 x 4 x 4: a block of 128 rows of the
  first argument, a block of 128 rows of the second, and a block of 128 columns of both. A scratch block carries the
  running sums from point to point: it is reset to zero where the column block is the first, gains at every point the
  sums over the point's 128 columns of the absolute differences, and is copied into the output block where the column
  block is the last, which is where the output block is written back.
-/
import proofs.«155119_j31413390803001_1_alg».proof.Proof.Gen.KernelIdeal.Launch
import proofs.«155119_j31413390803001_1_alg».proof.Proof.Gen.KernelIdeal.Skeleton
import proofs.«155119_j31413390803001_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch block as a memref. -/
abbrev scM0 : Memref sig .tc .vmem S128x128 .f32 := Memref.whole cc0_scratch0

/-- What the scratch block holds after the body at position `n`: the point's payload over zero where the column block
    is the first, over what the point before left elsewhere. -/
def acc0 (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n =>
    show (if (n + 1) % 4 = 0 then _ else _) = _
    rw [if_pos h]

theorem acc0_later (c : Dev nD) (t : Fin cfg0.N) (h : t.val % 4 ≠ 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod 4) h
  | succ n =>
    show (if (n + 1) % 4 = 0 then _ else _) = _
    rw [if_neg h]; rfl

/-! ## The body's two conditions in closed form, and where the output window is idle -/

/-- The first conditional's condition (the column block is the first), from the grid coordinates. -/
abbrev cond0_0 (i : grid0.Coords) : Prop :=
  (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the column block is the last). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output is idle where the column block is not the last, and is not written back there; -/
theorem idleAt0_2 : ∀ t : Fin cfg0.N, t.val % 4 ≠ 3 → cfg0.idle 2 (grid0.coords t) = true := by decide +kernel
theorem noFlush0_2 : ∀ t : Fin cfg0.N, t.val % 4 ≠ 3 → (cfg0.win 2).flush t = false := by decide +kernel
/-- it is live where the column block is the last. -/
theorem liveAt0_2 : ∀ t : Fin cfg0.N, t.val % 4 = 3 → cfg0.idle 2 (grid0.coords t) = false := by decide +kernel

theorem hz : (![0, 0] : Fin 2 → Nat) = fun _ => 0 := funext fun a => by fin_cases a <;> rfl

/-! ## The body on whole memrefs at stated contents, case by case -/

/-- A list of stores whose last is of the whole block covers it. -/
theorem cover_cons (w : Vec F S128x128 .f32) (L : List (View.Piece (Elt F) S128x128 .f32)) (y : S128x128.Idx) :
    ∃ p ∈ ((⟨Rect.unit (s := S128x128) ![0, 0] S128x128.size inb_S128x128_S128x128_0_0, w⟩ : View.Piece (Elt F) S128x128 .f32) :: L), y ∈ p.1.set :=
  ⟨⟨Rect.unit (s := S128x128) ![0, 0] S128x128.size inb_S128x128_S128x128_0_0, w⟩, List.mem_cons_self, View.mem_set_unit_zero hz inb_S128x128_S128x128_0_0 y⟩

set_option maxHeartbeats 1000000 in
/-- The column block neither first nor last: the scratch block gains the point's sums; the output block is handed back as found. -/
theorem run0_B (c : Dev nD) (i : grid0.Coords) (arg3 : Memref sig .tc .vmem S128x128 .f32) (h3 : arg3.IsWhole) (arg4 : Memref sig .tc .vmem S128x128 .f32) (h4 : arg4.IsWhole) (arg5 : Memref sig .tc .vmem S128x128 .f32) (h5 : arg5.IsWhole) (arg6 : Memref sig .tc .vmem S128x128 .f32) (h6 : arg6.IsWhole)
    (hc0 : ¬cond0_0 i) (hc1 : ¬cond0_1 i) (x y xi s : Vec F S128x128 .f32) (E : Set ℕ) (K : PUnit → sProp 𝕄) :
    iprop(owns (c : Thread nD τ) arg3 fullShare x ∗ owns (c : Thread nD τ) arg4 fullShare y ∗ owns (c : Thread nD τ) arg5 fullShare xi ∗ owns (c : Thread nD τ) arg6 fullShare s
        ∗ (iprop(owns (c : Thread nD τ) arg3 fullShare x ∗ owns (c : Thread nD τ) arg4 fullShare y ∗ owns (c : Thread nD τ) arg5 fullShare xi ∗ owns (c : Thread nD τ) arg6 fullShare (k0_pay2 x y s)) -∗ K ⟨⟩))
      ⊢ wp frame (wpE (defs₀ (F := F)) Variants.none c none) E (cc0__cdist_kernel i arg3 h3 arg4 h4 arg5 h5 arg6 h6) K := by
  simp only [cc0__cdist_kernel_eq_skeleton]; unfold cc0__cdist_kernel_skel
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc0 | exact hc1)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [View.read_writes_eq_canon _ _ _ (cover_cons _ _), View.canon_unit_zero hz]
  simp only [View.readAt_eq_ld, h3.read_unread, h4.read_unread, h6.read_unread, View.ld_unit_zero (S := S128x128) hz]

set_option maxHeartbeats 1000000 in
/-- The column block the first: the scratch block is reset to zero and gains the point's sums, whatever it held; the output block is handed back as found. -/
theorem run0_A (c : Dev nD) (i : grid0.Coords) (arg3 : Memref sig .tc .vmem S128x128 .f32) (h3 : arg3.IsWhole) (arg4 : Memref sig .tc .vmem S128x128 .f32) (h4 : arg4.IsWhole) (arg5 : Memref sig .tc .vmem S128x128 .f32) (h5 : arg5.IsWhole) (arg6 : Memref sig .tc .vmem S128x128 .f32) (h6 : arg6.IsWhole)
    (hc0 : cond0_0 i) (hc1 : ¬cond0_1 i) (x y xi s : Vec F S128x128 .f32) (E : Set ℕ) (K : PUnit → sProp 𝕄) :
    iprop(owns (c : Thread nD τ) arg3 fullShare x ∗ owns (c : Thread nD τ) arg4 fullShare y ∗ owns (c : Thread nD τ) arg5 fullShare xi ∗ owns (c : Thread nD τ) arg6 fullShare s
        ∗ (iprop(owns (c : Thread nD τ) arg3 fullShare x ∗ owns (c : Thread nD τ) arg4 fullShare y ∗ owns (c : Thread nD τ) arg5 fullShare xi ∗ owns (c : Thread nD τ) arg6 fullShare (k0_pay2 x y (k0_pay1 (F := F)))) -∗ K ⟨⟩))
      ⊢ wp frame (wpE (defs₀ (F := F)) Variants.none c none) E (cc0__cdist_kernel i arg3 h3 arg4 h4 arg5 h5 arg6 h6) K := by
  simp only [cc0__cdist_kernel_eq_skeleton]; unfold cc0__cdist_kernel_skel
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc0 | exact hc1)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  sl_unfold_run_names
  rw [View.read_writes_eq_canon _ _ _ (cover_cons _ _), View.canon_cons_unit_zero hz, View.readCov_unit_zero (S := S128x128) _ hz]
  simp only [View.readAt_eq_ld, h3.read_unread, h4.read_unread, View.ld_unit_zero (S := S128x128) hz]

set_option maxHeartbeats 1000000 in
/-- The column block the last: the scratch block gains the point's sums and is copied into the output block, whatever that held. -/
theorem run0_C (c : Dev nD) (i : grid0.Coords) (arg3 : Memref sig .tc .vmem S128x128 .f32) (h3 : arg3.IsWhole) (arg4 : Memref sig .tc .vmem S128x128 .f32) (h4 : arg4.IsWhole) (arg5 : Memref sig .tc .vmem S128x128 .f32) (h5 : arg5.IsWhole) (arg6 : Memref sig .tc .vmem S128x128 .f32) (h6 : arg6.IsWhole)
    (hc0 : ¬cond0_0 i) (hc1 : cond0_1 i) (x y xi s : Vec F S128x128 .f32) (E : Set ℕ) (K : PUnit → sProp 𝕄) :
    iprop(owns (c : Thread nD τ) arg3 fullShare x ∗ owns (c : Thread nD τ) arg4 fullShare y ∗ owns (c : Thread nD τ) arg5 fullShare xi ∗ owns (c : Thread nD τ) arg6 fullShare s
        ∗ (iprop(owns (c : Thread nD τ) arg3 fullShare x ∗ owns (c : Thread nD τ) arg4 fullShare y ∗ owns (c : Thread nD τ) arg5 fullShare (k0_pay2 x y s) ∗ owns (c : Thread nD τ) arg6 fullShare (k0_pay2 x y s)) -∗ K ⟨⟩))
      ⊢ wp frame (wpE (defs₀ (F := F)) Variants.none c none) E (cc0__cdist_kernel i arg3 h3 arg4 h4 arg5 h5 arg6 h6) K := by
  simp only [cc0__cdist_kernel_eq_skeleton]; unfold cc0__cdist_kernel_skel
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc0 | exact hc1)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    sl_unfold_run_names
    rw [View.read_writes_eq_canon _ _ _ (cover_cons _ _), View.canon_unit_zero hz, View.readCov_unit_zero (S := S128x128) _ hz]
    simp only [View.readAt_eq_ld, h3.read_unread, h4.read_unread, h6.read_unread, View.ld_unit_zero (S := S128x128) hz]
  iexists _; isplitr
  swap; · iexact H6
  ipureintro
  sl_unfold_run_names
  rw [View.read_writes_eq_canon _ _ _ (cover_cons _ _), View.canon_unit_zero hz]
  simp only [View.readAt_eq_ld, h3.read_unread, h4.read_unread, h6.read_unread, View.ld_unit_zero (S := S128x128) hz]

/-- The core's scoped buffers other than the scratch block and this pipeline's staging buffers, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's invariant before position `n`: at the start what the launch hands over; afterwards the scratch block
    at what the point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

/-- The proof data of pipeline 0: each input's buffer stays at its block, the output's holds the scratch block's
    contents (read only where the column block is the last). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## The invariant's forms -/

/-- What the launch hands over: the scratch block at some contents, the other scoped buffers at anything, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

theorem PhiS0_zero (c : Dev nD) (n : ℕ) (h : n ≤ cfg0.N) (hn : n = 0) : PhiS0 V c n h = Pipeline.ΦA spec0 c := by
  subst hn; rfl

/-- After point `n`: the scratch block at that point's contents. -/
theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

/-- Before a point that is not the first: the scratch block at what the point before left. -/
theorem PhiS0_pos (c : Dev nD) (n : ℕ) (h : n ≤ cfg0.N) (hn : n ≠ 0) :
    PhiS0 V c n h = iprop(owns (c : Thread nD τ) scM0 fullShare (acc0 V c (n - 1) (by omega)) ∗ rest0 (F := F) c ∗ (∃ r, prngReg c r)) := by
  cases n with
  | zero => exact absurd rfl hn
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨HS, Hr, Hg⟩
  isplitl [HS Hr]
  · isplitl [HS]
    · iexists _; iexact HS
    iexact Hr
  iexact Hg

/-! ## The inputs' buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation, at a generic point -/

/-- Each window's current staging memref at point `t`, and its wholeness. -/
abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the column block's position says which of the three
    cases the point is in; the invariant hands the body the scratch block at what the point before left (at anything
    at the first point) and takes it back at this point's contents; where the column block is not the last the output
    block goes back as found, where it is the last it holds the scratch block's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · -- the column block is the first
    have hc0 : cond0_0 (grid0.coords t) := (hcond0_0 t).mpr h0
    have hc1 : ¬cond0_1 (grid0.coords t) := fun h => by have := (hcond0_1 t).mp h; omega
    have h3 : t.val % 4 ≠ 3 := by omega
    rw [Dat.leavesExact_idle (dat0 V c) 2 t (idleAt0_2 t h3) (noFlush0_2 t h3)]
    rw [acc0_first V c t h0]
    -- at the first point the scratch block holds anything, later what the point before left: either way it is reset
    by_cases hz : t.val = 0
    on_goal 1 =>
      rw [PhiS0_castSucc V c t, PhiS0_zero V c _ _ hz, PhiA0_eq]
      iintro ⟨⟨⟨⟨%s, HS⟩, Hr⟩, Hg⟩, Ho, ⟨%d0, H0⟩, ⟨%d1, H1⟩, ⟨%d2, H2⟩⟩
    on_goal 2 =>
      rw [PhiS0_castSucc V c t, PhiS0_pos V c _ _ hz]
      iintro ⟨⟨HS, Hr, Hg⟩, Ho, ⟨%d0, H0⟩, ⟨%d1, H1⟩, ⟨%d2, H2⟩⟩
    all_goals
      iapply (run0_A c (grid0.coords t) _ _ _ _ _ _ _ _ hc0 hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
  · have hz : t.val ≠ 0 := fun h => h0 (by rw [h])
    have hc0 : ¬cond0_0 (grid0.coords t) := fun h => h0 ((hcond0_0 t).mp h)
    rw [acc0_later V c t h0]
    rw [PhiS0_castSucc V c t, PhiS0_pos V c _ _ hz]
    by_cases h3 : t.val % 4 = 3
    · -- the column block is the last
      have hc1 : cond0_1 (grid0.coords t) := (hcond0_1 t).mpr h3
      rw [show (dat0 V c).leavesExact 2 t = owns (c : Thread nD τ) (ms0_2 t) fullShare ((dat0 V c).after 2 t) from by
        unfold Dat.leavesExact; rw [liveAt0_2 t h3], after0_2, acc0_later V c t h0]
      iintro ⟨⟨HS, Hr, Hg⟩, Ho, ⟨%d0, H0⟩, ⟨%d1, H1⟩, ⟨%d2, H2⟩⟩
      iapply (run0_C c (grid0.coords t) _ _ _ _ _ _ _ _ hc0 hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · -- the column block is neither
      have hc1 : ¬cond0_1 (grid0.coords t) := fun h => h3 ((hcond0_1 t).mp h)
      rw [Dat.leavesExact_idle (dat0 V c) 2 t (idleAt0_2 t h3) (noFlush0_2 t h3)]
      iintro ⟨⟨HS, Hr, Hg⟩, Ho, ⟨%d0, H0⟩, ⟨%d1, H1⟩, ⟨%d2, H2⟩⟩
      iapply (run0_B c (grid0.coords t) _ _ _ _ _ _ _ _ hc0 hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/-
  Region 1 of the kernel's @main: the global maximum. One grid point; the whole 1024 x 512 array of
  distances is the one input block, and the body stores into the 1 x 1 output block the maximum over the rows of
  the maxima over each row's lanes.
-/
import proofs.«155119_j31413390803001_1_alg».proof.Proof.Gen.KernelIdeal.Launch
import proofs.«155119_j31413390803001_1_alg».proof.Proof.Gen.KernelIdeal.Skeleton
import proofs.«155119_j31413390803001_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1: the input's buffer stays at its block, the output's holds the body's payload of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = k1_pay1 (iblk1 V c 0 t) := by dsimp only [dat1]

/-- Input window 0's current buffer holds its block at every point, fetched there or not, for any proof data whose
    array is `V`'s and whose body leaves the block in place: unfetched, the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The offset of the body's rectangles is zero on both axes. -/
theorem hz1 : (![0, 0] : Fin 2 → Nat) = fun _ => 0 := funext fun a => by fin_cases a <;> rfl

/-- The whole input block, which the body loads, and the whole output block, which it loads and then stores. -/
abbrev r1_in : Rect S1024x512 := Rect.unit (s := S1024x512) ![0, 0] S1024x512.size inb_S1024x512_S1024x512_0_0
abbrev r1_out : Rect S1x1 := Rect.unit (s := S1x1) ![0, 0] S1x1.size inb_S1x1_S1x1_0_0

/-- The output buffer after the body, from the input block: its one store as a piece. -/
def out1_1 (x0 : Vec F S1024x512 .f32) : Vec F S1x1 .f32 :=
  View.canon [⟨r1_out, k1_pay1 (View.ld x0 r1_in)⟩]

/-- The one store is through the whole block, so it covers it. -/
theorem cover1_1 (p0 : Vec F S1x1 .f32) (y : S1x1.Idx) :
    ∃ pc ∈ ([⟨r1_out, p0⟩] : List (View.Piece (Elt F) S1x1 .f32)), y ∈ pc.1.set :=
  View.cover_of_tiled [⟨r1_out, p0⟩] S1x1.size (by rfl) y

/-- A whole-block store of the payload of a whole-block load leaves the payload of the block itself. -/
theorem out1_1_eq (x0 : Vec F S1024x512 .f32) : out1_1 x0 = k1_pay1 x0 := by
  unfold out1_1
  rw [View.canon_unit_zero (S := S1x1) hz1, View.ld_unit_zero (S := S1024x512) hz1]

set_option maxHeartbeats 1000000 in
/-- The body on whole memrefs, the input's at contents `x0` and the output's at anything: it loads the input block,
    loads the output block (a value it does not use) and stores the payload over the whole output block; the input
    is left as it was and the output holds `out1_1 x0`. -/
theorem sound_kernel1 (c : Dev nD) (E : Set ℕ) (i : grid1.Coords) (arg1 : Memref sig .tc .vmem S1024x512 .f32) (harg1 : arg1.IsWhole)
    (arg2 : Memref sig .tc .vmem S1x1 .f32) (harg2 : arg2.IsWhole)
    (x0 : Vec F S1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__max_kernel i arg1 harg1 arg2 harg2) K := by
  simp only [cc1__max_kernel_eq_skeleton]; unfold cc1__max_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The input's current buffer holds its block at every point. -/
theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, ← out1_1_eq]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
/-
  Region 2 of the kernel's @main: the closing pass. Eight grid points, one per block of 128 rows; at each
  point the body reads the block of distances, the 1 x 1 maximum and the 1 x 512 row of weights and stores, into the
  128 x 512 output block, the weight times (zero minus the distance, plus the maximum times the literal).
-/
import proofs.«155119_j31413390803001_1_alg».proof.Proof.Gen.KernelIdeal.Launch
import proofs.«155119_j31413390803001_1_alg».proof.Proof.Gen.KernelIdeal.Skeleton
import proofs.«155119_j31413390803001_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of pipeline 2: each input's buffer stays at its block, the output's holds the body's payload of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 1 t) (iblk2 V c 2 t) (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 1 t) (iblk2 V c 2 t) (iblk2 V c 0 t) := by dsimp only [dat2]

/-- Input window 0's current buffer holds its block at every point, fetched there or not, for any proof data whose
    array is `V`'s and whose body leaves the block in place: unfetched, the index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for any proof data whose
    array is `V`'s and whose body leaves the block in place: unfetched, the index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for any proof data whose
    array is `V`'s and whose body leaves the block in place: unfetched, the index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The offset of the body's rectangles is zero on both axes. -/
theorem hz2 : (![0, 0] : Fin 2 → Nat) = fun _ => 0 := funext fun a => by fin_cases a <;> rfl

/-- The whole blocks the body loads (the distances, the maximum, the weights) and the whole output block, which it
    loads and then stores. -/
abbrev r2_blk : Rect S128x512 := Rect.unit (s := S128x512) ![0, 0] S128x512.size inb_S128x512_S128x512_0_0
abbrev r2_max : Rect S1x1 := Rect.unit (s := S1x1) ![0, 0] S1x1.size inb_S1x1_S1x1_0_0
abbrev r2_wt : Rect S1x512 := Rect.unit (s := S1x512) ![0, 0] S1x512.size inb_S1x512_S1x512_0_0

/-- The output buffer after the body, from the input blocks (the distances `x0`, the maximum `x1`, the weights
    `x2`): its one store as a piece. -/
def out2_3 (x0 : Vec F S128x512 .f32) (x1 : Vec F S1x1 .f32) (x2 : Vec F S1x512 .f32) : Vec F S128x512 .f32 :=
  View.canon [⟨r2_blk, k2_pay1 (View.ld x1 r2_max) (View.ld x2 r2_wt) (View.ld x0 r2_blk)⟩]

/-- The one store is through the whole block, so it covers it. -/
theorem cover2_3 (p0 : Vec F S128x512 .f32) (y : S128x512.Idx) :
    ∃ pc ∈ ([⟨r2_blk, p0⟩] : List (View.Piece (Elt F) S128x512 .f32)), y ∈ pc.1.set :=
  View.cover_of_tiled [⟨r2_blk, p0⟩] S128x512.size (by rfl) y

/-- A whole-block store of the payload of whole-block loads leaves the payload of the blocks themselves. -/
theorem out2_3_eq (x0 : Vec F S128x512 .f32) (x1 : Vec F S1x1 .f32) (x2 : Vec F S1x512 .f32) :
    out2_3 x0 x1 x2 = k2_pay1 x1 x2 x0 := by
  unfold out2_3
  rw [View.canon_unit_zero (S := S128x512) hz2, View.ld_unit_zero (S := S1x1) hz2, View.ld_unit_zero (S := S1x512) hz2,
    View.ld_unit_zero (S := S128x512) hz2]

set_option maxHeartbeats 1000000 in
/-- The body on whole memrefs, the inputs' at contents `x0`, `x1`, `x2` and the output's at anything: it loads the
    maximum, the weights and the distances, loads the output block (a value it does not use) and stores the payload
    over the whole output block; the inputs are left as they were and the output holds `out2_3 x0 x1 x2`. -/
theorem sound_kernel2 (c : Dev nD) (E : Set ℕ) (i : grid2.Coords) (arg1 : Memref sig .tc .vmem S128x512 .f32) (harg1 : arg1.IsWhole)
    (arg2 : Memref sig .tc .vmem S1x1 .f32) (harg2 : arg2.IsWhole) (arg3 : Memref sig .tc .vmem S1x512 .f32) (harg3 : arg3.IsWhole)
    (arg4 : Memref sig .tc .vmem S128x512 .f32) (harg4 : arg4.IsWhole)
    (x0 : Vec F S128x512 .f32) (x1 : Vec F S1x1 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, ← out2_3_eq]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The run of the kernel's @main as four items — the three kernel regions and, before the last, the reshape
  of the weights into a row — with every unscoped buffer's contents named at each boundary: at launch the memory; after
  a region its arrays at what its write-backs leave and every other buffer as before; after the reshape what it
  computes. Every weakly fair execution terminates with each unscoped buffer at the last boundary's contents; read at
  the arguments these are the launch contents, and at the result what region 2's write-backs leave.
-/
import proofs.«155119_j31413390803001_1_alg».proof.Proof.KI.Region0
import proofs.«155119_j31413390803001_1_alg».proof.Proof.KI.Region1
import proofs.«155119_j31413390803001_1_alg».proof.Proof.KI.Region2
import proofs.«155119_j31413390803001_1_alg».proof.Proof.LibClassARegion
import proofs.«155119_j31413390803001_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev W0 (c : Dev nD) : Valuation τ sig (Elt F) := fun b => m (c, b)
/-- The same read at the TensorCore's references. -/
abbrev U0 : (c : Dev nD) → (b : Ref sig .tc) → Buf (Elt F) ((c : Thread nD τ).loc b) := fun c b => W0 m c b
/-- After region 0. -/
def W1 (c : Dev nD) : Valuation τ sig (Elt F) :=
  Pipeline.withArrays spec0 c (W0 m c) fun w => (dat0 (U0 m) c).arrAt w cfg0.N
abbrev U1 : (c : Dev nD) → (b : Ref sig .tc) → Buf (Elt F) ((c : Thread nD τ).loc b) := fun c b => W1 m c b
/-- After region 1. -/
def W2 (c : Dev nD) : Valuation τ sig (Elt F) :=
  Pipeline.withArrays spec1 c (W1 m c) fun w => (dat1 (U1 m) c).arrAt w cfg1.N
abbrev U2 : (c : Dev nD) → (b : Ref sig .tc) → Buf (Elt F) ((c : Thread nD τ).loc b) := fun c b => W2 m c b
/-- After the reshape. -/
abbrev W3 (c : Dev nD) : Valuation τ sig (Elt F) := StableHlo.after hostOps2 (W2 m c)
abbrev U3 : (c : Dev nD) → (b : Ref sig .tc) → Buf (Elt F) ((c : Thread nD τ).loc b) := fun c b => W3 m c b
/-- After region 2. -/
def W4 (c : Dev nD) : Valuation τ sig (Elt F) :=
  Pipeline.withArrays spec2 c (W3 m c) fun w => (dat2 (U3 m) c).arrAt w cfg2.N

theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem W3_of (c : Dev nD) (r : Ref sig .tc) (h : r ∉ hostOps2_W) :
    W3 m c (Proc.devRef .tc r) = W2 m c (Proc.devRef .tc r) :=
  StableHlo.after_of_writes_sub hostOps2 _ hostOps2_writes h
theorem W4_arr (c : Dev nD) (w : Fin cfg2.W) :
    W4 m c (Proc.devRef .tc (Pipeline.arrRef spec2 w)) = (dat2 (U3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

/-! ## The proof data family and the segments -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
  | ⟨2, _⟩ => fun c => dat2 (U3 m) c

/-- No core owes another anything: no level is assigned. -/
abbrev Lz : GSem nD τ sig → Finset Unit := fun _ => ∅
abbrev lvz : GSem nD τ sig → Unit → ℕ := fun _ _ => 0

/-- No pipeline has a prefetched table: what is held of them is nothing. -/
theorem noTables (p : Fin 3) (c : Dev nD) :
    (BI.emp : sProp 𝕄) ⊢ Pipeline.prefHeld (pcfgs (F := F) p).pre c (fun _ => fullShare) (adm (F := F) p).1 := by
  match p with
  | ⟨0, _⟩ => unfold Pipeline.prefHeld; rw [show (Finset.univ : Finset (Fin 0)) = ∅ from rfl, BI.bigSep_empty]
  | ⟨1, _⟩ => unfold Pipeline.prefHeld; rw [show (Finset.univ : Finset (Fin 0)) = ∅ from rfl, BI.bigSep_empty]
  | ⟨2, _⟩ => unfold Pipeline.prefHeld; rw [show (Finset.univ : Finset (Fin 0)) = ∅ from rfl, BI.bigSep_empty]

set_option backward.isDefEq.respectTransparency.types false in
/-- Region 0 as a segment: entered from the launch contents, left at `W1`. -/
def reg0 : Pipeline.RegionSeg (pcfgs (F := F)) adm (pdats m) () defs₀ Variants.none Lz lvz 0 :=
  Pipeline.ClassA.region (pcfgs (F := F)) adm (pdats m) defs₀ Variants.none Lz lvz 0 launch0.toP
    (fun c => body_obligation0 (U0 m) c) (fun _ _ => rfl) (fun _ _ => rfl) (fun _ _ => rfl)
    (fun c => hin0 (U0 m) c) (fun c => hout0 (U0 m) c) (noTables 0)
    (W0 m) (W1 m) (fun _ _ => rfl) (fun c w => (W1_arr m c w).symm)
    (fun c b hb => W1_of_ne m c b fun w e => hb (Finset.mem_image.mpr ⟨w, Finset.mem_univ _, e⟩))

set_option backward.isDefEq.respectTransparency.types false in
/-- Region 1 as a segment: entered from `W1`, left at `W2`. -/
def reg1 : Pipeline.RegionSeg (pcfgs (F := F)) adm (pdats m) () defs₀ Variants.none Lz lvz 1 :=
  Pipeline.ClassA.region (pcfgs (F := F)) adm (pdats m) defs₀ Variants.none Lz lvz 1 launch1.toP
    (fun c => body_obligation1 (U1 m) c) (fun _ _ => rfl) (fun _ _ => rfl) (fun _ _ => rfl)
    (fun _ => .rfl) (fun _ => .rfl) (noTables 1)
    (W1 m) (W2 m) (fun _ _ => rfl) (fun c w => (W2_arr m c w).symm)
    (fun c b hb => W2_of_ne m c b fun w e => hb (Finset.mem_image.mpr ⟨w, Finset.mem_univ _, e⟩))

set_option backward.isDefEq.respectTransparency.types false in
/-- Region 2 as a segment: entered from `W3`, left at `W4`. -/
def reg2 : Pipeline.RegionSeg (pcfgs (F := F)) adm (pdats m) () defs₀ Variants.none Lz lvz 2 :=
  Pipeline.ClassA.region (pcfgs (F := F)) adm (pdats m) defs₀ Variants.none Lz lvz 2 launch2.toP
    (fun c => body_obligation2 (U3 m) c) (fun _ _ => rfl) (fun _ _ => rfl) (fun _ _ => rfl)
    (fun _ => .rfl) (fun _ => .rfl) (noTables 2)
    (W3 m) (W4 m) (fun _ _ => rfl) (fun c w => (W4_arr m c w).symm)
    (fun c b hb => W4_of_ne m c b fun w e => hb (Finset.mem_image.mpr ⟨w, Finset.mem_univ _, e⟩))

/-- The reshape of the weights as a segment: over the unscoped references from `W2`, the register and the core's
    dues riding along; it leaves them at `W3`. -/
abbrev hseg2 : Pipeline.HostSeg (Ix := Unit) (Name := ℕ) (U := UR sig nD τ) (Lvl := ℕ) (pcfgs (F := F)) defs₀ Variants.none Lz lvz :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) (Pipeline.ClassA.rides (U' := UR sig nD τ))

/-- @main's four items in order. -/
abbrev segs : List (Pipeline.Seg (pcfgs (F := F)) adm (pdats m) () defs₀ Variants.none Lz lvz) :=
  [ .region (reg0 m), .region (reg1 m), .host (hseg2 m), .region (reg2 m) ]

/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting,
    and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ Variants.none Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => Pipeline.ClassA.between (U' := UR sig nD τ) c (W0 m c))
    (Tₙ := fun c => StableHlo.held (c : Thread nD τ) (Pipeline.ucRefs τ sig) (W4 m c))
    (hch := ⟨fun _ => .rfl, fun _ => .rfl, fun _ => .rfl, fun _ => .rfl, fun c => by
      show (Pipeline.ClassA.between (U' := UR sig nD τ) c (W4 m c) : sProp 𝕄)
        ⊢ iprop(StableHlo.held (c : Thread nD τ) (Pipeline.ucRefs τ sig) (W4 m c) ∗ ∃ W, owes (c : Thread nD τ) (0 : CellTallies nD τ sig Unit) W)
      unfold Pipeline.ClassA.between Pipeline.ClassA.rides
      iintro ⟨Hh, -, HO⟩
      isplitl [Hh]; · iexact Hh
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      unfold Pipeline.ClassA.between Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The last boundary read back -/

/-- The arguments end as launched: no region writes one (each reads it through an input window or passes it by) and
    the reshape writes another buffer. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := (W1_arr m c 0).trans (((dat0 (U0 m) c).arrAt_in 0 rfl _).trans (A_eq0 (U0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := (W1_arr m c 1).trans (((dat0 (U0 m) c).arrAt_in 1 rfl _).trans (A_eq0 (U0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl

/-- The result array ends at what region 2's write-backs leave. -/
theorem W4_main_v3 (c : Dev nD) : W4 m c (Proc.devRef .tc main_v3) = (dat2 (U3 m) c).arrAt 3 cfg2.N :=
  W4_arr m c 3

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Fr

end
-- ==== Proof.Spec.lean ====
/-
  The specification: what both programs compute, index by index, on the extended reals.

  For x of 1024 rows, c of 512 rows (512 columns each) and a weight vector b of length 512:
    sim x c (i, j)  = the sum over the 512 columns k of |x (i, k) - c (j, k)|, the absolute value being max a (-a);
    maxAll s        = the supremum of s over all its indices;
    out x c b (i,j) = b j * ( -(sim x c (i, j)) + maxAll (sim x c) * w ),  w the shared single-precision literal.
  The kernel's closing pass computes zero minus the distance where the reference negates it; on the extended reals
  these agree (`zero_sub`), which is `fin_eq_out`.
-/
import Idealize.ShloMosaic.PureOps.Ideal
import Idealize.ShloMosaic.Lib.ValueIdx

noncomputable section

open scoped BigOperators

namespace Cert.Spec

open Idealize.ShloMosaic Idealize.ShloMosaic.ValueIdx

/-- The shared literal: the single-precision word both programs print for 1.001. -/
def lit : EReal := FloatOps.ofBits (F := Ideal) .f32 0x3F8020C5#32

/-- The pairwise L1 distances. -/
def sim (x : (⟨2, ![1024, 512]⟩ : Shape).Idx → EReal) (cn : (⟨2, ![512, 512]⟩ : Shape).Idx → EReal) :
    (⟨2, ![1024, 512]⟩ : Shape).Idx → EReal :=
  fun i => ∑ k : Fin 512, max (x (ix2 (i 0) k) - cn (ix2 (i 1) k)) (-(x (ix2 (i 0) k) - cn (ix2 (i 1) k)))

/-- The supremum of an array's entries. -/
def maxAll (s : (⟨2, ![1024, 512]⟩ : Shape).Idx → EReal) : EReal := ⨆ i, s i

/-- The supremum by its universal property: an upper bound below every upper bound. -/
theorem maxAll_unique {s : (⟨2, ![1024, 512]⟩ : Shape).Idx → EReal} {m : EReal}
    (hub : ∀ i, s i ≤ m) (hleast : ∀ b : EReal, (∀ i, s i ≤ b) → m ≤ b) : m = maxAll s :=
  le_antisymm (hleast _ (le_iSup s)) (iSup_le hub)

/-- The closing pass, from the distances, the 1 x 1 maximum and the 1 x 512 row of weights. -/
def fin (s : (⟨2, ![1024, 512]⟩ : Shape).Idx → EReal) (mx : (⟨2, ![1, 1]⟩ : Shape).Idx → EReal)
    (b2 : (⟨2, ![1, 512]⟩ : Shape).Idx → EReal) : (⟨2, ![1024, 512]⟩ : Shape).Idx → EReal :=
  fun i => b2 (ix2 0 (i 1)) * ((0 - s i) + mx (ix2 0 0) * lit)

/-- The whole result. -/
def out (x : (⟨2, ![1024, 512]⟩ : Shape).Idx → EReal) (cn : (⟨2, ![512, 512]⟩ : Shape).Idx → EReal)
    (b : (⟨1, ![512]⟩ : Shape).Idx → EReal) : (⟨2, ![1024, 512]⟩ : Shape).Idx → EReal :=
  fun i => b (ix1 (i 1)) * (-(sim x cn i) + maxAll (sim x cn) * lit)

/-- The closing pass of the distances, their supremum and the weights as a row is the whole result. -/
theorem fin_eq_out (x : (⟨2, ![1024, 512]⟩ : Shape).Idx → EReal) (cn : (⟨2, ![512, 512]⟩ : Shape).Idx → EReal)
    (b : (⟨1, ![512]⟩ : Shape).Idx → EReal) :
    fin (sim x cn) (fun _ => maxAll (sim x cn)) (fun i => b (ix1 (i 1))) = out x cn b := by
  funext i
  simp only [fin, out, zero_sub]

end Cert.Spec

end
-- ==== Proof.Val.V0.lean ====
/-
  What region 0 leaves in its output array, on the extended reals: entry (i, j) is the sum over all 512 columns k of
  |x (i, k) - c (j, k)|. The scratch block, reset at the first of the four column blocks, holds after the block kb
  the sum over the columns below 128 (kb + 1); the output block is written back after the last, and the 32 output
  blocks tile the array.
-/
import proofs.«155119_j31413390803001_1_alg».proof.Proof.KI.Region0
import proofs.«155119_j31413390803001_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.R0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-- The absolute difference, as the extended reals have it. -/
abbrev adiff (a b : EReal) : EReal := max (a - b) (-(a - b))

/-- The reset block is zero everywhere. -/
theorem pay1_apply (p q : Fin 128) : (k0_pay1 (F := Ideal)) (ix2 p q) = 0 := by
  unfold k0_pay1
  rw [shapeCast_self]
  exact Ideal.ofBits_zero_f32

/-- A block of rows spread along a new middle axis reads, at (p, q, k), the block at (p, k). -/
theorem rows_apply (x0 : Vec Ideal S128x128 .f32) (p q k : Fin 128) :
    broadcastTo S128x128x128 (shapeCast S128x1x128 x0 shapeCasts_S128x128_S128x1x128) broadcasts_S128x1x128_S128x128x128
      (ix3 p q k) = x0 (ix2 p k) := by
  refine (broadcastTo_apply _ broadcasts_S128x1x128_S128x128x128 (ix3 p q k) (ix3 p (0 : Fin 1) k) fun ax => ?_).trans ?_
  · match ax with
    | ⟨0, _⟩ => rfl
    | ⟨1, _⟩ => rfl
    | ⟨2, _⟩ => rfl
  · refine shapeCast_apply x0 shapeCasts_S128x128_S128x1x128 (ix3 p (0 : Fin 1) k) (ix2 p k) ?_
    rw [Shape.rowMajor_val_three, Shape.rowMajor_val_two]
    show p.val * 128 + k.val = (p.val * 1 + 0) * 128 + k.val
    omega

/-- A block of rows spread along a new leading axis reads, at (p, q, k), the block at (q, k). -/
theorem cols_apply (x1 : Vec Ideal S128x128 .f32) (p q k : Fin 128) :
    broadcastTo S128x128x128 (shapeCast S1x128x128 x1 shapeCasts_S128x128_S1x128x128) broadcasts_S1x128x128_S128x128x128
      (ix3 p q k) = x1 (ix2 q k) := by
  refine (broadcastTo_apply _ broadcasts_S1x128x128_S128x128x128 (ix3 p q k) (ix3 (0 : Fin 1) q k) fun ax => ?_).trans ?_
  · match ax with
    | ⟨0, _⟩ => rfl
    | ⟨1, _⟩ => rfl
    | ⟨2, _⟩ => rfl
  · refine shapeCast_apply x1 shapeCasts_S128x128_S1x128x128 (ix3 (0 : Fin 1) q k) (ix2 q k) ?_
    rw [Shape.rowMajor_val_three, Shape.rowMajor_val_two]
    show q.val * 128 + k.val = (0 * 128 + q.val) * 128 + k.val
    omega

/-- The index the lane sum inserts k at, on the last axis. -/
theorem lift_eq (p q k : Fin 128) :
    reduces_S128x128x128_S128x128.lift (ix2 p q) k = ix3 p q k := by
  funext a
  match a with
  | ⟨0, _⟩ => rfl
  | ⟨1, _⟩ => rfl
  | ⟨2, _⟩ => rfl

/-- The body's block at (p, q): what the scratch block held there plus the sum over the 128 columns of the absolute
    differences of row p of the first block and row q of the second. -/
theorem pay2_apply (x0 x1 acc : Vec Ideal S128x128 .f32) (p q : Fin 128) :
    k0_pay2 x0 x1 acc (ix2 p q) = acc (ix2 p q) + ∑ k : Fin 128, adiff (x0 (ix2 p k)) (x1 (ix2 q k)) := by
  unfold k0_pay2
  rw [shapeCast_self]
  rw [addf_apply]
  congr 1
  refine (Ideal.multiReduction_add_single _ 0x00000000#32 reduces_S128x128x128_S128x128 (.inl rfl) rfl (ix2 p q)).trans ?_
  show (∑ k : Fin 128, _) = _
  refine Finset.sum_congr rfl fun (k : Fin 128) _ => ?_
  rw [lift_eq p q k]
  show max (_ - _) (-(_ - _)) = _
  rw [rows_apply, cols_apply]

variable (V : (c : Dev nD) → (b : Ref sig .tc) → Buf (Elt Ideal) ((c : Thread nD τ).loc b))

/-- The windows' index maps over the grid: the row block of the first argument and of the output is the point's first
    coordinate, the row block of the second argument and the output's column block its second, the column block of both
    arguments its third. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- The grid has 128 points. -/
theorem N0 : cfg0.N = 128 := by decide

/-- The first argument's block at a point, read at (p, k). -/
theorem xblk_apply (c : Dev nD) (t : Fin cfg0.N) (p k : Fin 128) :
    iblk0 V c 0 t (ix2 p k) = V c main_arg0 (ix2 (n0 := 1024) (n1 := 512)
      ⟨t.val / 16 * 128 + p.val, by have h : t.val < cfg0.N := t.isLt; have hN : cfg0.N = 128 := N0; omega⟩ ⟨t.val % 4 * 128 + k.val, by omega⟩) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 128 + 1 * p.val = _; rw [e0]; show _ = t.val / 16 * 128 + p.val; omega
  | ⟨1, _⟩ => show win0_0.index t (1 : Fin 2) * 128 + 1 * k.val = _; rw [e1]; show _ = t.val % 4 * 128 + k.val; omega

/-- The second argument's block at a point, read at (q, k). -/
theorem cblk_apply (c : Dev nD) (t : Fin cfg0.N) (q k : Fin 128) :
    iblk0 V c 1 t (ix2 q k) = V c main_arg1 (ix2 (n0 := 512) (n1 := 512)
      ⟨t.val / 4 % 4 * 128 + q.val, by omega⟩ ⟨t.val % 4 * 128 + k.val, by omega⟩) := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t (0 : Fin 2) * 128 + 1 * q.val = _; rw [e2]; show _ = t.val / 4 % 4 * 128 + q.val; omega
  | ⟨1, _⟩ => show win0_1.index t (1 : Fin 2) * 128 + 1 * k.val = _; rw [e3]; show _ = t.val % 4 * 128 + k.val; omega

/-- What the point at position n adds at (p, q): the sum over its 128 columns of the absolute differences. -/
def addend (c : Dev nD) (n : ℕ) (p q : Fin 128) : EReal :=
  if h : n < cfg0.N then ∑ k : Fin 128, adiff (iblk0 V c 0 ⟨n, h⟩ (ix2 p k)) (iblk0 V c 1 ⟨n, h⟩ (ix2 q k)) else 0

/-- The scratch block's contents depend on the position only. -/
theorem acc0_congr (c : Dev nD) {n m : ℕ} (e : n = m) (hn : n < cfg0.N) (hm : m < cfg0.N) :
    acc0 V c n hn = acc0 V c m hm := by subst e; rfl

/-- Within a run of four points starting at a multiple of four, the scratch block after the point at offset j holds
    the sum of the addends of the run's points up to it. -/
theorem acc_run (c : Dev nD) (b : ℕ) (hb : b % 4 = 0) : ∀ (j : ℕ) (hj : j < 4) (h : b + j < cfg0.N) (p q : Fin 128),
    acc0 V c (b + j) h (ix2 p q) = ∑ s ∈ Finset.range (j + 1), addend V c (b + s) p q
  | 0, _, h, p, q => by
    refine (congrFun (acc0_first V c ⟨b + 0, h⟩ (by show (b + 0) % 4 = 0; rw [Nat.add_zero]; exact hb)) (ix2 p q)).trans ?_
    refine (pay2_apply _ _ _ p q).trans ?_
    rw [pay1_apply, zero_add, Finset.sum_range_one]
    unfold addend
    rw [dif_pos h]
  | j + 1, hj, h, p, q => by
    have key := acc0_later V c ⟨b + (j + 1), h⟩ (by show (b + (j + 1)) % 4 ≠ 0; omega)
    rw [acc0_congr V c (show (⟨b + (j + 1), h⟩ : Fin cfg0.N).val - 1 = b + j from by show b + (j + 1) - 1 = b + j; omega) _
      (Nat.lt_of_succ_lt h)] at key
    refine (congrFun key (ix2 p q)).trans ?_
    refine (pay2_apply _ _ _ p q).trans ?_
    rw [acc_run c b hb j (Nat.lt_of_succ_lt hj) (Nat.lt_of_succ_lt h) p q, Finset.sum_range_succ _ (j + 1)]
    congr 1
    unfold addend
    rw [dif_pos h]

/-- A sum over four positions, written out. -/
theorem sum_range_four (g : ℕ → EReal) : ∑ s ∈ Finset.range 4, g s = g 0 + (g 1 + (g 2 + g 3)) := by
  rw [show (4 : ℕ) = 0 + 1 + 1 + 1 + 1 from rfl, Finset.sum_range_succ, Finset.sum_range_succ, Finset.sum_range_succ,
    Finset.sum_range_succ, Finset.sum_range_zero, zero_add, add_assoc, add_assoc]

/-- A sum over 512 columns, split into the four blocks of 128. -/
theorem sum_blocks (f : ℕ → EReal) :
    ∑ k : Fin 512, f k.val = ∑ s ∈ Finset.range 4, ∑ k : Fin 128, f (s * 128 + k.val) := by
  rw [Fin.sum_univ_eq_sum_range (fun n => f n) 512]
  have h128 : ∀ s, ∑ k : Fin 128, f (s * 128 + k.val) = ∑ k ∈ Finset.range 128, f (s * 128 + k) :=
    fun s => Fin.sum_univ_eq_sum_range (fun n => f (s * 128 + n)) 128
  simp only [h128]
  rw [show (512 : ℕ) = 128 + (128 + (128 + 128)) from rfl, Finset.sum_range_add, Finset.sum_range_add,
    Finset.sum_range_add]
  rw [sum_range_four]
  refine congrArg₂ (· + ·) (Finset.sum_congr rfl fun k _ => congrArg f (by omega)) ?_
  refine congrArg₂ (· + ·) (Finset.sum_congr rfl fun k _ => congrArg f (by omega)) ?_
  refine congrArg₂ (· + ·) (Finset.sum_congr rfl fun k _ => congrArg f (by omega)) ?_
  exact Finset.sum_congr rfl fun k _ => congrArg f (by omega)

/-- The term of the distance of row R of the first argument and row C of the second at column n. -/
def term (x : (⟨2, ![1024, 512]⟩ : Shape).Idx → EReal) (cn : (⟨2, ![512, 512]⟩ : Shape).Idx → EReal)
    (R : Fin 1024) (C : Fin 512) (n : ℕ) : EReal :=
  if h : n < 512 then adiff (x (ix2 R ⟨n, h⟩)) (cn (ix2 C ⟨n, h⟩)) else 0

/-- Terms at equal rows and column are equal. -/
theorem term_congr (x : (⟨2, ![1024, 512]⟩ : Shape).Idx → EReal) (cn : (⟨2, ![512, 512]⟩ : Shape).Idx → EReal)
    {R R' : Fin 1024} {C C' : Fin 512} {n n' : ℕ} (hR : R.val = R'.val) (hC : C.val = C'.val) (hn : n = n') :
    term x cn R C n = term x cn R' C' n' := by
  obtain rfl := Fin.ext hR
  obtain rfl := Fin.ext hC
  subst hn
  rfl

/-- The distance of two rows is the sum of their terms over the 512 columns. -/
theorem sim_eq (x : (⟨2, ![1024, 512]⟩ : Shape).Idx → EReal) (cn : (⟨2, ![512, 512]⟩ : Shape).Idx → EReal)
    (R : Fin 1024) (C : Fin 512) : Cert.Spec.sim x cn (ix2 R C) = ∑ k : Fin 512, term x cn R C k.val := by
  unfold Cert.Spec.sim term
  refine Finset.sum_congr rfl fun k _ => ?_
  rw [dif_pos k.isLt]

/-- A point's addend, over the arguments: the terms of its rows at its 128 columns. -/
theorem addend_eq (c : Dev nD) (n : ℕ) (h : n < cfg0.N) (p q : Fin 128) :
    addend V c n p q = ∑ k : Fin 128, term (V c main_arg0) (V c main_arg1)
      ⟨n / 16 * 128 + p.val, by have hN : cfg0.N = 128 := N0; omega⟩ ⟨n / 4 % 4 * 128 + q.val, by omega⟩
      (n % 4 * 128 + k.val) := by
  unfold addend
  rw [dif_pos h]
  refine Finset.sum_congr rfl fun k _ => ?_
  unfold term
  rw [dif_pos (by omega)]
  exact congrArg₂ adiff (xblk_apply V c ⟨n, h⟩ p k) (cblk_apply V c ⟨n, h⟩ q k)

/-- An index of the output array is in a point's block iff each coordinate is in the block's range on its axis. -/
theorem mem_blk (t : Fin cfg0.N) (i : S1024x512.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0).slice (win0_2.rect t)).set ↔ _
  rw [View.set_slice_whole, Rect.mem_set_unit]
  exact Iff.rfl

/-- What a writing point writes back is its block of the array of distances. -/
theorem flushed_eq (c : Dev nD) (t : Fin cfg0.N) (hf : (cfg0.win 2).flush t = true) :
    (dat0 (F := Ideal) V c).flushed 2 t
      = ((cfg0.win 2).blk t).view.read (Elt Ideal) (Cert.Spec.sim (V c main_arg0) (V c main_arg1)) := by
  have h3 : t.val % 4 = 3 := (flush0_2 t).mp hf
  have hN : cfg0.N = 128 := N0
  have ht : t.val < cfg0.N := t.isLt
  obtain ⟨-, -, -, -, e4, e5⟩ := idx_facts t
  show (cfg0.win 2).cut (grid0.coords t) ((dat0 V c).after 2 t) = _
  rw [after0_2]
  funext j
  obtain ⟨p, q, rfl⟩ : ∃ (p q : Fin 128), j = ix2 p q := ⟨j 0, j 1, eq_ix2 j⟩
  show acc0 V c t.val t.isLt (ix2 p q)
    = Cert.Spec.sim (V c main_arg0) (V c main_arg1) (((cfg0.win 2).blk t).view.emb (ix2 p q))
  have hemb : ((cfg0.win 2).blk t).view.emb (ix2 p q)
      = ix2 (n0 := 1024) (n1 := 512) ⟨t.val / 16 * 128 + p.val, by omega⟩ ⟨t.val / 4 % 4 * 128 + q.val, by omega⟩ := by
    funext a
    apply Fin.ext
    match a with
    | ⟨0, _⟩ => show win0_2.index t (0 : Fin 2) * 128 + 1 * p.val = _; rw [e4]; show _ = t.val / 16 * 128 + p.val; omega
    | ⟨1, _⟩ => show win0_2.index t (1 : Fin 2) * 128 + 1 * q.val = _; rw [e5]; show _ = t.val / 4 % 4 * 128 + q.val; omega
  rw [hemb, sim_eq, sum_blocks]
  have hlt : 4 * (t.val / 4) + 3 < cfg0.N := by omega
  rw [acc0_congr V c (show t.val = 4 * (t.val / 4) + 3 by omega) t.isLt hlt,
    acc_run V c (4 * (t.val / 4)) (by omega) 3 (by omega) hlt p q]
  refine Finset.sum_congr rfl fun s hs => ?_
  have hs4 : s < 4 := Finset.mem_range.mp hs
  rw [addend_eq V c (4 * (t.val / 4) + s) (by omega) p q]
  refine Finset.sum_congr rfl fun k _ => ?_
  have hk : k.val < 128 := k.isLt
  exact term_congr _ _ (by show (4 * (t.val / 4) + s) / 16 * 128 + p.val = t.val / 16 * 128 + p.val; omega)
    (by show (4 * (t.val / 4) + s) / 4 % 4 * 128 + q.val = t.val / 4 % 4 * 128 + q.val; omega) (by omega)

/-- Every index of the output array is in the block of a writing point: the blocks tile the array. -/
theorem cover (i : S1024x512.Idx) :
    ∃ t : Fin cfg0.N, (cfg0.win 2).flush t = true ∧ i ∈ ((cfg0.win 2).blk t).view.set := by
  have hi0 : (i 0).val < 1024 := (i 0).isLt
  have hi1 : (i 1).val < 512 := (i 1).isLt
  have hN : cfg0.N = 128 := N0
  have hlt : ((i 0).val / 128 * 4 + (i 1).val / 128) * 4 + 3 < cfg0.N := by omega
  obtain ⟨-, -, -, -, e4, e5⟩ := idx_facts ⟨((i 0).val / 128 * 4 + (i 1).val / 128) * 4 + 3, hlt⟩
  refine ⟨⟨((i 0).val / 128 * 4 + (i 1).val / 128) * 4 + 3, hlt⟩, (flush0_2 _).mpr ?_, ?_⟩
  · show (((i 0).val / 128 * 4 + (i 1).val / 128) * 4 + 3) % 4 = 3
    omega
  · rw [mem_blk]
    intro a
    match a with
    | ⟨0, _⟩ =>
      show win0_2.index ⟨((i 0).val / 128 * 4 + (i 1).val / 128) * 4 + 3, hlt⟩ (0 : Fin 2) * 128 ≤ (i 0).val
        ∧ (i 0).val < win0_2.index ⟨((i 0).val / 128 * 4 + (i 1).val / 128) * 4 + 3, hlt⟩ (0 : Fin 2) * 128 + 128
      rw [e4]
      show (((i 0).val / 128 * 4 + (i 1).val / 128) * 4 + 3) / 16 * 128 ≤ (i 0).val
        ∧ (i 0).val < (((i 0).val / 128 * 4 + (i 1).val / 128) * 4 + 3) / 16 * 128 + 128
      omega
    | ⟨1, _⟩ =>
      show win0_2.index ⟨((i 0).val / 128 * 4 + (i 1).val / 128) * 4 + 3, hlt⟩ (1 : Fin 2) * 128 ≤ (i 1).val
        ∧ (i 1).val < win0_2.index ⟨((i 0).val / 128 * 4 + (i 1).val / 128) * 4 + 3, hlt⟩ (1 : Fin 2) * 128 + 128
      rw [e5]
      show (((i 0).val / 128 * 4 + (i 1).val / 128) * 4 + 3) / 4 % 4 * 128 ≤ (i 1).val
        ∧ (i 1).val < (((i 0).val / 128 * 4 + (i 1).val / 128) * 4 + 3) / 4 % 4 * 128 + 128
      omega

/-- The output array of region 0 after the run is the array of pairwise distances of the region's two inputs. -/
theorem arr0 (c : Dev nD) :
    (dat0 (F := Ideal) V c).arrAt 2 cfg0.N = Cert.Spec.sim (V c main_arg0) (V c main_arg1) :=
  (dat0 (F := Ideal) V c).arrAt_eq_of_cover 2 (Cert.Spec.sim (V c main_arg0) (V c main_arg1))
    (fun t hf => flushed_eq V c t hf) cover

end Cert.KernelIdeal.Val.R0

end
-- ==== Proof.Val.V1.lean ====
/-
  What region 1 leaves in its 1 x 1 output array, on the extended reals: the supremum of the 1024 x 512 input's
  entries — the maximum over the rows of each row's maximum over its lanes, both folds starting from minus infinity.
-/
import proofs.«155119_j31413390803001_1_alg».proof.Proof.KI.Region1
import proofs.«155119_j31413390803001_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.R1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

/-- The word of minus infinity reads as the bottom of the extended reals. -/
theorem ninf_eq_bot : FloatOps.ofBits (F := Ideal) .f32 0xFF800000#32 = (⊥ : EReal) := by
  show Ideal.ofBits .f32 0xFF800000#32 = ⊥
  simp [Ideal.ofBits, Ideal.ieee]

/-- A row's maximum: the fold of max from minus infinity over the row's 512 lanes. -/
theorem rowmax_apply (v : Vec Ideal S1024x512 .f32) (r : Fin 1024) :
    multiReduction (F := Ideal) .maximumf [1] S1024 v 0xFF800000#32 reduces_S1024x512_S1024 (.inl rfl) rfl (ix1 r)
      = (Finset.univ : Finset (Fin 512)).fold max (⊥ : EReal) (fun k => v (ix2 r k)) := by
  refine (Ideal.multiReduction_maximumf_single (φ := .f32) (s := S1024x512) (t := S1024) (a := 1) v 0xFF800000#32
    reduces_S1024x512_S1024 (.inl rfl) rfl (ix1 r)).trans ?_
  rw [ninf_eq_bot]
  have hl : ∀ k : Fin 512, reduces_S1024x512_S1024.lift (ix1 r) k = ix2 r k := fun k => by
    funext a; apply Fin.ext
    match a with
    | ⟨0, _⟩ => rfl
    | ⟨1, _⟩ => rfl
  exact congrArg (fun g => Finset.fold max (⊥ : EReal) g Finset.univ) (funext fun k => congrArg v (hl k))

/-- The maximum down a column of 1024 entries: the fold of max from minus infinity over the rows. -/
theorem colmax_apply (u : Vec Ideal S1024x1 .f32) :
    multiReduction (F := Ideal) .maximumf [0] S1 u 0xFF800000#32 reduces_S1024x1_S1 (.inl rfl) rfl (ix1 0)
      = (Finset.univ : Finset (Fin 1024)).fold max (⊥ : EReal) (fun r => u (ix2 r 0)) := by
  refine (Ideal.multiReduction_maximumf_single (φ := .f32) (s := S1024x1) (t := S1) (a := 0) u 0xFF800000#32
    reduces_S1024x1_S1 (.inl rfl) rfl (ix1 0)).trans ?_
  rw [ninf_eq_bot]
  have hl : ∀ r : Fin 1024, reduces_S1024x1_S1.lift (ix1 0) r = ix2 r 0 := fun r => by
    funext a; apply Fin.ext
    match a with
    | ⟨0, _⟩ => rfl
    | ⟨1, _⟩ => rfl
  exact congrArg (fun g => Finset.fold max (⊥ : EReal) g Finset.univ) (funext fun r => congrArg u (hl r))

/-- The body's payload at its one index: the maximum over the rows of each row's maximum over its lanes, both
    folds from minus infinity. -/
theorem pay1_apply (v0 : Vec Ideal S1024x512 .f32) (y : S1x1.Idx) :
    k1_pay1 (F := Ideal) v0 y
      = (Finset.univ : Finset (Fin 1024)).fold max (⊥ : EReal)
          (fun r => (Finset.univ : Finset (Fin 512)).fold max (⊥ : EReal) (fun k => v0 (ix2 r k))) := by
  unfold k1_pay1
  simp only [shapeCast_self]
  refine (shapeCast_apply _ shapeCasts_S1_S1x1 y (ix1 0) ?_).trans ?_
  · rw [Shape.rowMajor_val_one, Shape.rowMajor_val_two]
    have h0 : (y 0).val < 1 := (y 0).isLt
    have h1 : (y 1).val < 1 := (y 1).isLt
    show 0 = (y 0).val * 1 + (y 1).val
    omega
  refine (colmax_apply _).trans ?_
  refine congrArg (fun g => Finset.fold max (⊥ : EReal) g Finset.univ) (funext fun r => ?_)
  refine (shapeCast_apply _ shapeCasts_S1024_S1024x1 (ix2 r 0) (ix1 r) ?_).trans ?_
  · rw [Shape.rowMajor_val_one, Shape.rowMajor_val_two]
    show r.val = r.val * 1 + 0
    omega
  exact rowmax_apply v0 r

/-- The payload is the supremum of the block's entries: every entry is below its row's maximum, which is below the
    result; and a bound of all the entries bounds every row's maximum and so the result. -/
theorem pay1_eq_maxAll (v0 : Vec Ideal S1024x512 .f32) (y : S1x1.Idx) :
    k1_pay1 (F := Ideal) v0 y = Cert.Spec.maxAll v0 := by
  rw [pay1_apply]
  refine Cert.Spec.maxAll_unique (fun i => ?_) (fun b hb => ?_)
  · refine (Finset.le_fold_max _).mpr (Or.inr ⟨i 0, Finset.mem_univ _, ?_⟩)
    refine (Finset.le_fold_max _).mpr (Or.inr ⟨i 1, Finset.mem_univ _, ?_⟩)
    exact le_of_eq (congrArg v0 (eq_ix2 i))
  · refine (Finset.fold_max_le _).mpr ⟨bot_le, fun r _ => ?_⟩
    exact (Finset.fold_max_le _).mpr ⟨bot_le, fun k _ => hb (ix2 r k)⟩

/-- The printed index maps, decided over the grid: both windows sit at block zero on both axes. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The input's one block is the whole array. -/
theorem iblk1_whole (c : Dev nD) (t : Fin cfg1.N) :
    (iblk1 (F := Ideal) V c 0 t : (⟨2, ![1024, 512]⟩ : Shape).Idx → EReal) = V c main_v0 := by
  obtain ⟨e0, e1, -, -⟩ := idx_facts1 t
  funext i
  show V c main_v0 (((cfg1.win 0).blk t).view.emb i) = V c main_v0 i
  refine congrArg (V c main_v0) ?_
  funext a; apply Fin.ext
  match a with
  | ⟨0, _⟩ => show win1_0.index t (0 : Fin 2) * 1024 + 1 * (i 0).val = (i 0).val; omega
  | ⟨1, _⟩ => show win1_0.index t (1 : Fin 2) * 512 + 1 * (i 1).val = (i 1).val; omega

/-- What the one point writes back is the block of the constant array at the supremum of the input. -/
theorem flushed1_eq (c : Dev nD) (t : Fin cfg1.N) :
    (dat1 (F := Ideal) V c).flushed 1 t
      = ((cfg1.win 1).blk t).view.read (Elt Ideal) (fun _ => Cert.Spec.maxAll (V c main_v0)) := by
  show (cfg1.win 1).cut (grid1.coords t) ((dat1 V c).after 1 t) = _
  rw [after1_1]
  funext j
  refine (pay1_eq_maxAll (iblk1 V c 0 t) _).trans ?_
  exact congrArg Cert.Spec.maxAll (iblk1_whole V c t)

/-- An index of the 1 x 1 array is in point t's block iff each coordinate is in the block's range on its axis. -/
theorem mem_blk1 (t : Fin cfg1.N) (i : S1x1.Idx) :
    i ∈ ((cfg1.win 1).blk t).view.set ↔ ∀ a : Fin 2, win1_1.index t a * S1x1.size a ≤ (i a).val
      ∧ (i a).val < win1_1.index t a * S1x1.size a + S1x1.size a := by
  show i ∈ ((View.whole main_v1).slice (win1_1.rect t)).set ↔ _
  rw [View.set_slice_whole, Rect.mem_set_unit]
  exact Iff.rfl

/-- The one point's block is the whole 1 x 1 array. -/
theorem cover1 (i : S1x1.Idx) :
    ∃ t : Fin cfg1.N, (cfg1.win 1).flush t = true ∧ i ∈ ((cfg1.win 1).blk t).view.set := by
  have hi0 : (i 0).val < 1 := (i 0).isLt
  have hi1 : (i 1).val < 1 := (i 1).isLt
  obtain ⟨-, -, e2, e3⟩ := idx_facts1 t1_0
  refine ⟨t1_0, flush1_1 _, ?_⟩
  rw [mem_blk1]
  intro a
  match a with
  | ⟨0, _⟩ =>
    show win1_1.index t1_0 (0 : Fin 2) * 1 ≤ (i 0).val ∧ (i 0).val < win1_1.index t1_0 (0 : Fin 2) * 1 + 1
    omega
  | ⟨1, _⟩ =>
    show win1_1.index t1_0 (1 : Fin 2) * 1 ≤ (i 1).val ∧ (i 1).val < win1_1.index t1_0 (1 : Fin 2) * 1 + 1
    omega

/-- The output array of region 1 after the run holds the supremum of the region's input. -/
theorem arr1 (c : Dev nD) :
    (dat1 (F := Ideal) V c).arrAt 1 cfg1.N = fun _ => Cert.Spec.maxAll (V c main_v0) :=
  (dat1 (F := Ideal) V c).arrAt_eq_of_cover 1 _ (fun t _ => flushed1_eq V c t) cover1

end Cert.KernelIdeal.Val.R1

end
-- ==== Proof.Val.V2.lean ====
/-
  What region 2 leaves in its output array, on the extended reals: entry (i, j) is the weight b (0, j) times
  (zero minus the distance s (i, j), plus the 1 x 1 maximum times the literal). Each of the eight points writes one
  block of 128 rows, and the eight blocks tile the array.
-/
import proofs.«155119_j31413390803001_1_alg».proof.Proof.KI.Region2
import proofs.«155119_j31413390803001_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.R2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

/-- The closing pass on blocks, at an index: the weight of the index's column times (zero minus the block's
    entry, plus the 1 x 1 maximum times the literal). -/
theorem pay2_at (x1 : Vec Ideal S1x1 .f32) (x2 : Vec Ideal S1x512 .f32) (x0 : Vec Ideal S128x512 .f32)
    (y : S128x512.Idx) :
    k2_pay1 (F := Ideal) x1 x2 x0 y
      = x2 (ix2 0 (y 1)) * ((0 - x0 y) + x1 (ix2 0 0) * Cert.Spec.lit) := by
  unfold k2_pay1
  simp only [shapeCast_self]
  rw [mulf_apply, addf_apply, subf_apply, broadcast_apply,
    broadcastTo_apply (s := S1x512) (t := S128x512) x2 broadcasts_S1x512_S128x512 y (ix2 0 (y 1)) (by
      intro a; fin_cases a <;> rfl),
    broadcastTo_apply (s := S1x1) (t := S128x512) _ broadcasts_S1x1_S128x512 y (ix2 0 0) (by
      intro a; fin_cases a <;> rfl),
    mulf_apply, broadcast_apply]
  show x2 (ix2 0 (y 1)) * (Ideal.ofBits .f32 0x00000000#32 - x0 y + x1 (ix2 0 0) * Cert.Spec.lit) = _
  rw [Ideal.ofBits_zero_f32]

/-- The printed index maps, decided over the grid: the block of distances moves with the output block, down the
    rows and one block a point; the maximum and the weights stay at their one block. -/
theorem idx_facts2 : ∀ t : Fin cfg2.N,
    win2_0.index t (0 : Fin 2) = win2_3.index t (0 : Fin 2)
    ∧ win2_0.index t (1 : Fin 2) = win2_3.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The closing pass at an index, from its three readings. -/
theorem fin_of_parts (s : (⟨2, ![1024, 512]⟩ : Shape).Idx → EReal) (mx : (⟨2, ![1, 1]⟩ : Shape).Idx → EReal)
    (b2 : (⟨2, ![1, 512]⟩ : Shape).Idx → EReal) (i : (⟨2, ![1024, 512]⟩ : Shape).Idx) (A B C : EReal)
    (hA : A = b2 (ix2 0 (i 1))) (hB : B = s i) (hC : C = mx (ix2 0 0)) :
    A * ((0 - B) + C * Cert.Spec.lit) = Cert.Spec.fin s mx b2 i := by
  subst hA hB hC; rfl

/-- What point t writes back is block t of the closing pass of the three arrays as the region finds them: the
    block of distances sits where the output block sits, and the maximum and the weights are whole. -/
theorem flushed2_eq (c : Dev nD) (t : Fin cfg2.N) :
    (dat2 (F := Ideal) V c).flushed 3 t
      = ((cfg2.win 3).blk t).view.read (Elt Ideal) (Cert.Spec.fin (V c main_v0) (V c main_v1) (V c main_v2)) := by
  show (cfg2.win 3).cut (grid2.coords t) ((dat2 V c).after 3 t) = _
  rw [after2_3]
  obtain ⟨e0, e1, e2, e3, e4, e5, e6, e7⟩ := idx_facts2 t
  funext j
  refine (pay2_at (iblk2 V c 1 t) (iblk2 V c 2 t) (iblk2 V c 0 t) _).trans ?_
  have h0 : ((cfg2.win 0).blk t).view.emb ((cfg2.win 3).xinj (grid2.coords t) j) = ((cfg2.win 3).blk t).view.emb j := by
    funext a; apply Fin.ext
    match a with
    | ⟨0, _⟩ => show win2_0.index t (0 : Fin 2) * 128 + 1 * (j 0).val = win2_3.index t (0 : Fin 2) * 128 + 1 * (j 0).val; omega
    | ⟨1, _⟩ => show win2_0.index t (1 : Fin 2) * 512 + 1 * (j 1).val = win2_3.index t (1 : Fin 2) * 512 + 1 * (j 1).val; omega
  have h1 : ((cfg2.win 1).blk t).view.emb (ix2 0 0) = ix2 0 0 := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  have h2 : ((cfg2.win 2).blk t).view.emb (ix2 0 ((cfg2.win 3).xinj (grid2.coords t) j 1))
      = ix2 0 ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 512 + 1 * (j 1).val = win2_3.index t (1 : Fin 2) * 512 + 1 * (j 1).val; omega
  exact fin_of_parts (V c main_v0) (V c main_v1) (V c main_v2) (((cfg2.win 3).blk t).view.emb j) _ _ _
    (congrArg (V c main_v2) h2) (congrArg (V c main_v0) h0) (congrArg (V c main_v1) h1)

/-- An index of the array is in point t's block iff each coordinate is in the block's range on its axis. -/
theorem mem_blk2 (t : Fin cfg2.N) (i : S1024x512.Idx) :
    i ∈ ((cfg2.win 3).blk t).view.set ↔ ∀ a : Fin 2, win2_3.index t a * S128x512.size a ≤ (i a).val
      ∧ (i a).val < win2_3.index t a * S128x512.size a + S128x512.size a := by
  show i ∈ ((View.whole main_v3).slice (win2_3.rect t)).set ↔ _
  rw [View.set_slice_whole, Rect.mem_set_unit]
  exact Iff.rfl

/-- The eight blocks of 128 rows tile the 1024 rows: row r is in the block of point r / 128. -/
theorem cover2 (i : S1024x512.Idx) :
    ∃ t : Fin cfg2.N, (cfg2.win 3).flush t = true ∧ i ∈ ((cfg2.win 3).blk t).view.set := by
  have hi0 : (i 0).val < 1024 := (i 0).isLt
  have hi1 : (i 1).val < 512 := (i 1).isLt
  have hN : (i 0).val / 128 < cfg2.N := by show _ < grid2.N; rw [N_2]; omega
  obtain ⟨-, -, -, -, -, -, e6, e7⟩ := idx_facts2 ⟨(i 0).val / 128, hN⟩
  refine ⟨⟨(i 0).val / 128, hN⟩, flush2_3 _, ?_⟩
  rw [mem_blk2]
  intro a
  match a with
  | ⟨0, _⟩ =>
    show win2_3.index ⟨(i 0).val / 128, hN⟩ (0 : Fin 2) * 128 ≤ (i 0).val
      ∧ (i 0).val < win2_3.index ⟨(i 0).val / 128, hN⟩ (0 : Fin 2) * 128 + 128
    rw [e6]; show (i 0).val / 128 * 128 ≤ (i 0).val ∧ (i 0).val < (i 0).val / 128 * 128 + 128; omega
  | ⟨1, _⟩ =>
    show win2_3.index ⟨(i 0).val / 128, hN⟩ (1 : Fin 2) * 512 ≤ (i 1).val
      ∧ (i 1).val < win2_3.index ⟨(i 0).val / 128, hN⟩ (1 : Fin 2) * 512 + 512
    rw [e7]; omega

/-- The output array of region 2 after the run is the closing pass of the region's three inputs. -/
theorem arr2 (c : Dev nD) :
    (dat2 (F := Ideal) V c).arrAt 3 cfg2.N = Cert.Spec.fin (V c main_v0) (V c main_v1) (V c main_v2) :=
  (dat2 (F := Ideal) V c).arrAt_eq_of_cover 3 _ (fun t _ => flushed2_eq V c t) cover2

end Cert.KernelIdeal.Val.R2

end
-- ==== Proof.Val.Assemble.lean ====
/-
  The idealized kernel's result on the extended reals. The last boundary's contents of the result array are region 2's
  write-backs: the closing pass of what region 2 found in its three input arrays — the distances region 0 left (region
  1 and the reshape write other buffers), the 1 x 1 array region 1 left, which is the supremum of those distances, and
  the weights reshaped into a row. Together: the specification's `out` of the three arguments.
-/
import proofs.«155119_j31413390803001_1_alg».proof.Proof.KI.Run
import proofs.«155119_j31413390803001_1_alg».proof.Proof.Val.V0
import proofs.«155119_j31413390803001_1_alg».proof.Proof.Val.V1
import proofs.«155119_j31413390803001_1_alg».proof.Proof.Val.V2
import proofs.«155119_j31413390803001_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ) (ρ : Dev nD → PrngReg)

/-- After region 0 its output array holds the distances of the first two arguments. -/
theorem U1_main_v0 (c : Dev nD) :
    U1 m c main_v0 = Cert.Spec.sim (m ((c : Thread nD τ).loc main_arg0)) (m ((c : Thread nD τ).loc main_arg1)) :=
  (W1_arr m c 2).trans (R0.arr0 (U0 m) c)

/-- Region 2 finds the distances unchanged: region 1 only reads them and the reshape writes another buffer. -/
theorem U3_main_v0 (c : Dev nD) :
    U3 m c main_v0 = Cert.Spec.sim (m ((c : Thread nD τ).loc main_arg0)) (m ((c : Thread nD τ).loc main_arg1)) :=
  (W3_of m c main_v0 (by decide)).trans <| (W2_arr m c 0).trans <|
    ((dat1 (U1 m) c).arrAt_in 0 rfl _).trans <| (A_eq1 (U1 m) c 0).trans (U1_main_v0 m c)

/-- Region 2 finds, in the 1 x 1 array, the supremum of the distances. -/
theorem U3_main_v1 (c : Dev nD) :
    U3 m c main_v1 = fun _ => Cert.Spec.maxAll (Cert.Spec.sim (m ((c : Thread nD τ).loc main_arg0)) (m ((c : Thread nD τ).loc main_arg1))) :=
  (W3_of m c main_v1 (by decide)).trans <| (W2_arr m c 1).trans <| (R1.arr1 (U1 m) c).trans (by rw [U1_main_v0])

/-- Region 2 finds the weights as a row: the reshape of the third argument, which no region has written. -/
theorem U3_main_v2 (c : Dev nD) :
    U3 m c main_v2 = fun i => m ((c : Thread nD τ).loc main_arg2) (ix1 (i 1)) := by
  have hW : W2 m c (Proc.devRef .tc main_arg2) = m ((c : Thread nD τ).loc main_arg2) :=
    (W2_of_ne m c main_arg2 (by decide)).trans ((W1_of_ne m c main_arg2 (by decide)).trans rfl)
  show StableHlo.after hostOps2 (W2 m c) (Proc.devRef .tc main_v2) = _
  after_results
  funext (i : (⟨2, ![1, 512]⟩ : Shape).Idx)
  show shapeCast (⟨2, ![1, 512]⟩ : Shape) (W2 m c (Proc.devRef .tc main_arg2)) shapeCasts_S512_S1x512 i = _
  rw [hW]
  -- entry (0, j) of the row is entry j of the vector: the two have the same row-major position
  refine shapeCast_apply (s := (⟨1, ![512]⟩ : Shape)) (t := (⟨2, ![1, 512]⟩ : Shape)) _ _ i (ix1 (i 1)) ?_
  have h0 : (i 0).val < 1 := idx2_lt0 i
  rw [Shape.rowMajor_val_one, Shape.rowMajor_val_two]
  show (i 1).val = (i 0).val * 512 + (i 1).val
  omega

/-- The last boundary's contents of the result array. -/
theorem result (c : Dev nD) :
    W4 m c (Proc.devRef .tc main_v3)
      = Cert.Spec.out (m ((c : Thread nD τ).loc main_arg0)) (m ((c : Thread nD τ).loc main_arg1)) (m ((c : Thread nD τ).loc main_arg2)) :=
  (W4_main_v3 m c).trans <| (R2.arr2 (U3 m) c).trans (by
    rw [U3_main_v0, U3_main_v1, U3_main_v2]; exact Cert.Spec.fin_eq_out _ _ _)

/-- Every weakly fair execution of the idealized kernel terminates with its result array at the specification's
    `out` of the argument arrays, and the argument arrays unchanged. -/
theorem kernel_run : θ_run (defs (F := Ideal)) (onTc (τ := τ) (main (F := Ideal))) ⟨m, fun _ => 0, ρ⟩ (fun r => ∀ c : Dev nD,
      r.2.mem ((c.tc : Thread nD τ).loc main_v3)
          = Cert.Spec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (result m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Val

end
-- ==== Proof.RefVal.lean ====
/-
  The reference on the extended reals: its result array is the specification's `out` of its three arguments.
  The reference subtracts the broadcast rows, takes absolute values, sums over the last axis from zero, negates,
  takes the maximum over both axes from minus infinity, multiplies it by the literal, adds, and multiplies by the
  broadcast weights: operation for operation the specification, the sum from zero being the sum and the maximum from
  minus infinity the supremum.
-/
import proofs.«155119_j31413390803001_1_alg».proof.Proof.Gen.ReferenceIdeal.Run
import proofs.«155119_j31413390803001_1_alg».proof.Proof.Gen.ReferenceIdeal.Read
import proofs.«155119_j31413390803001_1_alg».proof.Proof.Spec
import Idealize.ShloMosaic.Lib.ValueIdx
import Idealize.ShloMosaic.Lib.StableHlo.Run
import Idealize.ShloMosaic.PureOps.Ideal.Laws

set_option maxRecDepth 16384

noncomputable section

open scoped BigOperators

namespace Cert.ReferenceIdeal.RefVal

open Idealize.ShloMosaic Idealize.ShloMosaic.TcCoe Idealize.ShloMosaic.ValueIdx
open Idealize.SL Idealize.SL.Sem
open Cert.ReferenceIdeal

open Cert.ReferenceIdeal.Read

/-! ## The maximum over both axes from minus infinity is the supremum -/

/-- A maximum-reduction of an array over both its axes, started from minus infinity, is the supremum of the array's
    entries: the reduction is the fold of `max` over the set of all indices (the result has no axis, so every index
    drops to its one index), which is below every upper bound of the entries and above each entry. -/
theorem reduce_max_all (s : S1024x512.Idx → EReal) (init : S_.Idx → EReal) (h : S1024x512.ReducesTo [0, 1] S_)
    (hu : 0 < S_.numel) (hinit : init (Shape.Idx.first hu) = ⊥) (j : S_.Idx) :
    Host.reduce (FloatOps.maximumf (F := Ideal) (φ := .f32)) s init h hu j = ⨆ i, s i := by
  rw [Host.reduce_eq_fold, hinit]
  refine le_antisymm ?_ ?_
  · exact (Finset.fold_max_le _).2 ⟨bot_le, fun i _ => le_iSup s i⟩
  · exact iSup_le fun i => (Finset.le_fold_max _).2
      (Or.inr ⟨i, Finset.mem_filter.2 ⟨Finset.mem_univ _, funext fun a => a.elim0⟩, le_rfl⟩)

/-- The single-precision word of minus infinity is the bottom of the extended reals. -/
theorem cst_0_first : val_main_cst_0 (F := Ideal) (Shape.Idx.first Gen.h_S_) = ⊥ := by
  show Ideal.ofBits .f32 0xFF800000#32 = ⊥
  simp [Ideal.ofBits, Ideal.ieee]

/-! ## The stages, index by index -/

/-- The sum over the last axis, from zero, of the absolute differences of the two broadcast arrays is the
    specification's distance: at (i, j, k) the first broadcast reads x (i, k), the second c (j, k); the zero word is 0
    and `0 + s = s`; the absolute value is `max a (-a)`. -/
theorem v6_eq (x : (⟨S1024x512, .f32⟩ : BufTy).Contents (Elt Ideal)) (cn : (⟨S512x512, .f32⟩ : BufTy).Contents (Elt Ideal))
    (i : S1024x512.Idx) : val_main_v6 (F := Ideal) x cn i = Cert.Spec.sim x cn i := by
  rw [val_main_v6_apply, val_main_cst_apply, Ideal.ofBits_def, Ideal.ofBits_zero_f32, zero_add]
  unfold Cert.Spec.sim
  refine Finset.sum_congr rfl fun k _ => ?_
  rw [val_main_v5_apply, val_main_v4_apply, val_main_v2_apply, val_main_v3_apply, val_main_v0_apply, val_main_v1_apply]
  have hx : idx_main_v0 (idx_main_v2 (idx_main_v6 i k)) = ix2 (i 0) k :=
    funext fun a => Fin.ext (by match a with | ⟨0, _⟩ => rfl | ⟨1, _⟩ => rfl)
  have hc : idx_main_v1 (idx_main_v3 (idx_main_v6 i k)) = ix2 (i 1) k :=
    funext fun a => Fin.ext (by match a with | ⟨0, _⟩ => rfl | ⟨1, _⟩ => rfl)
  rw [hx, hc]
  rfl

/-- The maximum of the distances over both axes, from minus infinity, is their supremum. -/
theorem v8_eq (x : (⟨S1024x512, .f32⟩ : BufTy).Contents (Elt Ideal)) (cn : (⟨S512x512, .f32⟩ : BufTy).Contents (Elt Ideal))
    (j : S_.Idx) : val_main_v8 (F := Ideal) x cn j = Cert.Spec.maxAll (Cert.Spec.sim x cn) := by
  unfold val_main_v8
  rw [reduce_max_all _ _ _ _ cst_0_first j]
  unfold Cert.Spec.maxAll
  exact congrArg iSup (funext (v6_eq x cn))

/-- The reference's result is the specification's: at (i, j) the weight row broadcast reads b j, the scalar
    broadcast reads the supremum times the literal, and the negated distance is added to it. -/
theorem result_eq (x : (⟨S1024x512, .f32⟩ : BufTy).Contents (Elt Ideal)) (cn : (⟨S512x512, .f32⟩ : BufTy).Contents (Elt Ideal))
    (b : (⟨S512, .f32⟩ : BufTy).Contents (Elt Ideal)) : val_main_v14 (F := Ideal) x cn b = Cert.Spec.out x cn b := by
  funext i
  rw [val_main_v14_apply, val_main_v13_apply, val_main_v12_apply, val_main_v11_apply, val_main_v7_apply,
    val_main_v10_apply, val_main_v9_apply, val_main_cst_1_apply, v8_eq, v6_eq]
  have hb : idx_main_v12 (idx_main_v13 i) = ix1 (i 1) :=
    funext fun a => Fin.ext (by match a with | ⟨0, _⟩ => rfl)
  rw [hb]
  rfl

/-! ## The run -/

/-- Every weakly fair execution of the reference terminates with its result array at the specification's `out` of
    the argument arrays, and the argument arrays unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v14)
          = Cert.Spec.out (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) := by
  refine (θ_run (defs (F := Ideal)) _ _).mono (fun _ h c => ⟨(h c).1.trans ?_, (h c).2⟩)
    (Cert.ReferenceIdeal.Value.run (F := Ideal) m' ρ')
  exact (val_main_v14_eq _ _ _).trans (result_eq _ _ _)

end Cert.ReferenceIdeal.RefVal

end
-- ==== Proof.lean ====
/-
  The kernel computes, for x of 1024 rows, c of 512 rows and weights b of length 512, the array
      out (i, j) = b j * ( -(sim (i, j)) + max sim * w ),   sim (i, j) = the sum over the 512 columns k of |x (i, k) - c (j, k)|,
  w the single-precision literal both programs print for 1.001, in three passes: the distances, accumulated over four
  blocks of 128 columns in a scratch block that starts from zero; their global maximum, as the maximum over the rows
  of each row's maximum; and the closing pass, which subtracts the distance from zero where the reference negates it.
  The reference computes the same array in one stretch of host operations. On the extended reals the two agree: a sum
  taken in four blocks from zero is the sum (addition is commutative and associative, and zero is neutral), the
  maximum of the rows' maxima from minus infinity is the supremum, and zero minus a number is its negative. No
  finiteness is used.

  The frames. Each kernel program is run as four items — three kernel regions and the reshape of the weights — with
  every unscoped buffer's contents named at each boundary; every execution terminates with the buffers at the last
  boundary's contents, which at the arguments are the launch contents. The reference's frame is its run with the
  result dropped. The ideal pass rewrote nothing, so `preserves` is trivial.
-/
import proofs.«155119_j31413390803001_1_alg».proof.Defs
import proofs.«155119_j31413390803001_1_alg».proof.Proof.Gen.Kernel
import proofs.«155119_j31413390803001_1_alg».proof.Proof.Gen.KernelIdeal
import proofs.«155119_j31413390803001_1_alg».proof.Proof.Gen.ReferenceIdeal
import proofs.«155119_j31413390803001_1_alg».proof.Proof.Gen.Pre_finite_inputs
import proofs.«155119_j31413390803001_1_alg».proof.Proof.K.Run
import proofs.«155119_j31413390803001_1_alg».proof.Proof.KI.Run
import proofs.«155119_j31413390803001_1_alg».proof.Proof.Val.Assemble
import proofs.«155119_j31413390803001_1_alg».proof.Proof.RefVal
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.RefVal.ref_run m ρ)

/-- Both idealized programs end with the specification's `out` of their arguments, which agree. -/
theorem algebraic : Cert.algebraic_KernelIdeal_ReferenceIdeal := by
  intro m ρ m' ρ' _ hagree
  refine ⟨_, Cert.KernelIdeal.Val.kernel_run m ρ, ?_⟩
  refine (θ_run Cert.ReferenceIdeal.defs _ _).mono (fun _ h c => ⟨(h c).1.trans ?_, (h c).2⟩)
    (Cert.ReferenceIdeal.RefVal.ref_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
